-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16
  ∧ IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32x1024 : Shape := ⟨2, ![32, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_

variable [Facts]

def fn_part1 {F : FTy → Type} [FloatOps F] (main_arg3 : IVec S32x1024 32) (main_v12 : IVec S_ 1) (main_v15 : IVec S_ 1) : IVec S_ 1 :=
  let main_v16 : IVec S_ 1 := andi main_v12 main_v15
  let main_c_6 : IVec S_ 32 := constantI S_ 32 0#32
  let main_v17 : IVec S32x1024 32 := broadcastInDim S32x1024 ![] bcast_S_S32x1024 main_c_6
  let main_v18 : IVec S32x1024 1 := cmpi .sge main_arg3 main_v17
  let main_c_7 : IVec S_ 1 := constantI S_ 1 1#1
  let main_v19 : IVec S_ 1 := (fun x v => Host.reduce IntOp.andi x v reducesTo_S32x1024_S_d0_1 h_S_) main_v18 main_c_7
  let main_v20 : IVec S_ 1 := andi main_v16 main_v19
  let main_c_8 : IVec S_ 32 := constantI S_ 32 1024#32
  let main_v21 : IVec S32x1024 32 := broadcastInDim S32x1024 ![] bcast_S_S32x1024 main_c_8
  let main_v22 : IVec S32x1024 1 := cmpi .slt main_arg3 main_v21
  let main_c_9 : IVec S_ 1 := constantI S_ 1 1#1
  let main_v23 : IVec S_ 1 := (fun x v => Host.reduce IntOp.andi x v reducesTo_S32x1024_S_d0_1 h_S_) main_v22 main_c_9
  let main_v24 : IVec S_ 1 := andi main_v20 main_v23
  main_v24

def fn {F : FTy → Type} [FloatOps F] (main_arg0 : FVec F S32x1024x1024 .f32) (main_arg1 : FVec F S32x1024x1024 .f32) (main_arg2 : IVec S32x1024 32) (main_arg3 : IVec S32x1024 32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_c_2 : IVec S_ 32 := constantI S_ 32 0#32
  let main_v9 : IVec S32x1024 32 := broadcastInDim S32x1024 ![] bcast_S_S32x1024 main_c_2
  let main_v10 : IVec S32x1024 1 := cmpi .sge main_arg2 main_v9
  let main_c_3 : IVec S_ 1 := constantI S_ 1 1#1
  let main_v11 : IVec S_ 1 := (fun x v => Host.reduce IntOp.andi x v reducesTo_S32x1024_S_d0_1 h_S_) main_v10 main_c_3
  let main_v12 : IVec S_ 1 := andi main_v8 main_v11
  let main_c_4 : IVec S_ 32 := constantI S_ 32 1024#32
  let main_v13 : IVec S32x1024 32 := broadcastInDim S32x1024 ![] bcast_S_S32x1024 main_c_4
  let main_v14 : IVec S32x1024 1 := cmpi .slt main_arg2 main_v13
  let main_c_5 : IVec S_ 1 := constantI S_ 1 1#1
  let main_v15 : IVec S_ 1 := (fun x v => Host.reduce IntOp.andi x v reducesTo_S32x1024_S_d0_1 h_S_) main_v14 main_c_5
  fn_part1 (F := F) main_arg3 main_v12 main_v15
-- ==== Kernel.lean ====
abbrev S32x1024x1024 : Shape := ⟨3, ![32, 1024, 1024]⟩
abbrev S32x1024 : Shape := ⟨2, ![32, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S_ : Shape := ⟨0, ![]⟩

abbrev nBuf : Space → Nat
  | .hbm => 19
  | .vmem => 12
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024, .i32⟩
  | .hbm, ⟨3, _⟩ => ⟨S32x1024, .i32⟩
  | .hbm, ⟨4, _⟩ => ⟨S2x1024x1024, .f32⟩
  | .hbm, ⟨5, _⟩ => ⟨S1x1024x1024, .f32⟩
  | .hbm, ⟨6, _⟩ => ⟨S1024x1024, .f32⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S32x1024, .i32⟩
  | .local _ .vmem, ⟨3, _⟩ => ⟨S1x1024x1024, .f32⟩
  | .local _ .vmem, ⟨4, _⟩ => ⟨S1x1024x1024, .f32⟩
  | .local _ .vmem, ⟨5, _⟩ => ⟨S1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S32x1024, .i32⟩
  | .local _ .vmem, ⟨9, _⟩ => ⟨S1024x1024, .f32⟩
  | .local _ .vmem, ⟨10, _⟩ => ⟨S1x1024x1024, .f32⟩
  | .local _ .vmem, ⟨11, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg0 : BitVec 32 := BitVec.ofNat 32 (i 0).val
  let c16_i32 : BitVec 32 := 16#32
  let v3 : BitVec 32 := Scalar.muli arg0 c16_i32
  let arg1 : BitVec 32 := BitVec.ofNat 32 (i 1).val
  let v4 : BitVec 32 := Scalar.addi v3 arg1
  let v5 : Index := Scalar.indexCast v4
  let c0 : Index := 0#32
  ![v5.toNat, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![32], ![false]⟩

def k1_off1 (i : grid1.Coords) : Fin 2 → Nat :=
  let arg0 : BitVec 32 := BitVec.ofNat 32 (i 0).val
  let v0 : Index := Scalar.indexCast arg0
  let c0 : Index := 0#32
  ![v0.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1024 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  h_S1x1024 : 0 < S1x1024.numel
  shapeCasts_S1x1024_S1024 : S1x1024.ShapeCasts S1024
  iota_S1024x1024_d1_w32 : S1024x1024.Iotas .tc 32 [1]
  shapeCasts_S1024_S1024x1 : S1024.ShapeCasts S1024x1
  broadcasts_S1024x1_S1024x1024 : S1024x1.Broadcasts S1024x1024
  natLt_1_32 : 1 < 32
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  slices_S2x1024x1024_S1x1024x1024_0_0_0 : S2x1024x1024.Slices ![0, 0, 0] S1x1024x1024
  slices_S2x1024x1024_S1x1024x1024_1_0_0 : S2x1024x1024.Slices ![1, 0, 0] S1x1024x1024
  bcast_S_S1024x1024 : S_.BroadcastsInDim S1024x1024 (![] : Fin 0 → Fin S1024x1024.rank)
  dot_S1024x1024_S1024x1024_S1024x1024_0_0_1_1_n_n_wf : DotDims.WF S1024x1024 S1024x1024 S1024x1024 [0] [0] [1] [1] [] []
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  k0_off1_inb : ∀ i : grid0.Coords, ∀ a, (k0_off1 i) a + S1x1024.size a ≤ S32x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S32x1024.size a
  hwx0_1 : ∀ i : grid0.Coords, EltTy.bits .i32 = 32 ∨ (Rect.block (s := S32x1024) S32x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S2x1024x1024.size a
  hwx0_2 : ∀ i : grid0.Coords, EltTy.bits .f32 = 32 ∨ (Rect.block (s := S2x1024x1024) S1x1024x1024.size (cc0_transform_2 i) (hinb0_2 i)).WholeWords (EltTy.packing .f32)
  hrank1 : 0 < grid1.rank
  k1_off1_inb : ∀ i : grid1.Coords, ∀ a, (k1_off1 i) a + S1x1024.size a ≤ S32x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S32x1024x1024.size a
  hwx1_0 : ∀ i : grid1.Coords, EltTy.bits .f32 = 32 ∨ (Rect.block (s := S32x1024x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1024.size a ≤ S32x1024.size a
  hwx1_1 : ∀ i : grid1.Coords, EltTy.bits .i32 = 32 ∨ (Rect.block (s := S32x1024) S32x1024.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .f32 = 32 ∨ (Rect.block (s := S1024x1024) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S32x1024x1024.size a
  hwx1_3 : ∀ i : grid1.Coords, EltTy.bits .f32 = 32 ∨ (Rect.block (s := S32x1024x1024) S1x1024x1024.size (cc1_transform_3 i) (hinb1_3 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x1024x1024 : Shape := ⟨3, ![32, 1024, 1024]⟩
abbrev S32x1024 : Shape := ⟨2, ![32, 1024]⟩
abbrev S32x1024x1 : Shape := ⟨3, ![32, 1024, 1]⟩
abbrev S_ : Shape := ⟨0, ![]⟩
abbrev S32x1x1024 : Shape := ⟨3, ![32, 1, 1024]⟩
abbrev S33554432 : Shape := ⟨1, ![33554432]⟩
abbrev S1048576 : Shape := ⟨1, ![1048576]⟩
abbrev S33554432x1 : Shape := ⟨2, ![33554432, 1]⟩
abbrev S32x1024x1024x1 : Shape := ⟨4, ![32, 1024, 1024, 1]⟩

abbrev nBuf : Space → Nat
  | .hbm => 61
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024, .i32⟩
  | .hbm, ⟨3, _⟩ => ⟨S32x1024, .i32⟩
  | .hbm, ⟨4, _⟩ => ⟨S32x1024x1, .i32⟩
  | .hbm, ⟨5, _⟩ => ⟨S_, .i32⟩
  | .hbm, ⟨6, _⟩ => ⟨S32x1024x1, .i32⟩
  | .hbm, ⟨7, _⟩ => ⟨S32x1024x1, .i32⟩
  | .hbm, ⟨8, _⟩ => ⟨S32x1x1024, .i32⟩
  | .hbm, ⟨9, _⟩ => ⟨S32x1024x1024, .i32⟩
  | .hbm, ⟨10, _⟩ => ⟨S32x1024x1024, .i32⟩
  | .hbm, ⟨11, _⟩ => ⟨S32x1024x1024, .i32⟩
  | .hbm, ⟨12, _⟩ => ⟨S33554432, .f32⟩
  | .hbm, ⟨13, _⟩ => ⟨S33554432, .i32⟩
  | .hbm, ⟨14, _⟩ => ⟨S_, .f32⟩
  | .hbm, ⟨15, _⟩ => ⟨S1048576, .f32⟩
  | .hbm, ⟨16, _⟩ => ⟨S33554432x1, .i32⟩
  | .hbm, ⟨17, _⟩ => ⟨S1048576, .f32⟩
  | .hbm, ⟨18, _⟩ => ⟨S1048576, .f32⟩
  | .hbm, ⟨19, _⟩ => ⟨S1048576, .f32⟩
  | .hbm, ⟨20, _⟩ => ⟨S_, .f32⟩
  | .hbm, ⟨21, _⟩ => ⟨S1048576, .f32⟩
  | .hbm, ⟨22, _⟩ => ⟨S1048576, .f32⟩
  | .hbm, ⟨23, _⟩ => ⟨S_, .f32⟩
  | .hbm, ⟨24, _⟩ => ⟨S1048576, .f32⟩
  | .hbm, ⟨25, _⟩ => ⟨S1048576, .f32⟩
  | .hbm, ⟨26, _⟩ => ⟨S32x1024x1, .i32⟩
  | .hbm, ⟨27, _⟩ => ⟨S_, .i32⟩
  | .hbm, ⟨28, _⟩ => ⟨S32x1024x1, .i32⟩
  | .hbm, ⟨29, _⟩ => ⟨S32x1024x1, .i32⟩
  | .hbm, ⟨30, _⟩ => ⟨S32x1x1024, .i32⟩
  | .hbm, ⟨31, _⟩ => ⟨S32x1024x1024, .i32⟩
  | .hbm, ⟨32, _⟩ => ⟨S32x1024x1024, .i32⟩
  | .hbm, ⟨33, _⟩ => ⟨S32x1024x1024, .i32⟩
  | .hbm, ⟨34, _⟩ => ⟨S_, .i32⟩
  | .hbm, ⟨35, _⟩ => ⟨S32x1024x1024, .i32⟩
  | .hbm, ⟨36, _⟩ => ⟨S32x1024x1024, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S32x1024x1024, .i32⟩
  | .hbm, ⟨41, _⟩ => ⟨S32x1024x1024, .i32⟩
  | .hbm, ⟨42, _⟩ => ⟨S_, .i32⟩
  | .hbm, ⟨43, _⟩ => ⟨S32x1024x1024, .i32⟩
  | .hbm, ⟨44, _⟩ => ⟨S32x1024x1024, .i32⟩
  | .hbm, ⟨45, _⟩ => ⟨S_, .i32⟩
  | .hbm, ⟨46, _⟩ => ⟨S32x1024x1024, .i32⟩
  | .hbm, ⟨47, _⟩ => ⟨S32x1024x1024, .i1⟩
  | .hbm, ⟨48, _⟩ => ⟨S_, .i32⟩
  | .hbm, ⟨49, _⟩ => ⟨S32x1024x1024, .i32⟩
  | .hbm, ⟨50, _⟩ => ⟨S32x1024x1024, .i32⟩
  | .hbm, ⟨51, _⟩ => ⟨S32x1024x1024, .i32⟩
  | .hbm, ⟨52, _⟩ => ⟨S32x1024x1024x1, .i32⟩
  | .hbm, ⟨53, _⟩ => ⟨S32x1024x1024, .f32⟩
  | .hbm, ⟨54, _⟩ => ⟨S_, .f32⟩
  | .hbm, ⟨55, _⟩ => ⟨S32x1024x1024, .f32⟩
  | .hbm, ⟨56, _⟩ => ⟨S32x1024x1024, .f32⟩
  | .hbm, ⟨57, _⟩ => ⟨S_, .f32⟩
  | .hbm, ⟨58, _⟩ => ⟨S32x1024x1024, .f32⟩
  | .hbm, ⟨59, _⟩ => ⟨S32x1024x1024, .f32⟩
  | .hbm, ⟨60, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_c_5 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_call1_v0 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]

class Facts₀ : Prop where
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024_S32x1x1024_0_2 : S32x1024.BroadcastsInDim S32x1x1024 (![0, 2] : Fin 2 → Fin S32x1x1024.rank)
  bcast_S32x1024x1_S32x1024x1024_0_1_2 : S32x1024x1.BroadcastsInDim S32x1024x1024 (![0, 1, 2] : Fin 3 → Fin S32x1024x1024.rank)
  bcast_S32x1x1024_S32x1024x1024_0_1_2 : S32x1x1024.BroadcastsInDim S32x1024x1024 (![0, 1, 2] : Fin 3 → Fin S32x1024x1024.rank)
  shapeCasts_S32x1024x1024_S33554432 : S32x1024x1024.ShapeCasts S33554432
  bcast_S_S1048576 : S_.BroadcastsInDim S1048576 (![] : Fin 0 → Fin S1048576.rank)
  bcast_S33554432_S33554432x1_0 : S33554432.BroadcastsInDim S33554432x1 (![0] : Fin 1 → Fin S33554432x1.rank)
  bcast_S_S32x1024x1024 : S_.BroadcastsInDim S32x1024x1024 (![] : Fin 0 → Fin S32x1024x1024.rank)
  bcast_S32x1024x1024_S32x1024x1024x1_0_1_2 : S32x1024x1024.BroadcastsInDim S32x1024x1024x1 (![0, 1, 2] : Fin 3 → Fin S32x1024x1024x1.rank)
  scatter_S1048576_S33554432x1_S33554432_n_0_0_1_wf : ScatterDims.WF S1048576 S33554432x1 S33554432 [] [0] [0] 1
  gather_S1048576_S32x1024x1024x1_S32x1024x1024_n_0_n_n_0_3_1_wf : GatherDims.WF S1048576 S32x1024x1024x1 S32x1024x1024 [] [0] [] [0] [] 3 ![1]

variable [Facts₀]

def scatter_S1048576_S33554432x1_S33554432_n_0_0_1 : ScatterDims S1048576 S33554432x1 S33554432 where
  updateWindowDims := []
  insertedWindowDims := [0]
  scatterDimsToOperandDims := [0]
  indexVectorDim := 1
  wf := scatter_S1048576_S33554432x1_S33554432_n_0_0_1_wf
def gather_S1048576_S32x1024x1024x1_S32x1024x1024_n_0_n_n_0_3_1 : GatherDims S1048576 S32x1024x1024x1 S32x1024x1024 where
  offsetDims := []
  collapsedSliceDims := [0]
  operandBatchingDims := []
  startIndicesBatchingDims := []
  startIndexMap := [0]
  indexVectorDim := 3
  sliceSizes := ![1]
  wf := gather_S1048576_S32x1024x1024x1_S32x1024x1024_n_0_n_n_0_3_1_wf

class Facts : Prop extends Facts₀ where

variable [Facts]
-- ==== Proof.Spec.lean ====
/-
  What the two programs compute, as one function of the four argument arrays over the extended reals.

  `adds` and `pos` hold part-of-speech tags, one per token of each of 32 sentences of 1024 tokens. The PAIR HISTOGRAM
  has one bin per pair (i, j) of tags: bin (i, j) is the sum of the arc scores a[b, p, q] over all sentences b and token
  pairs (p, q) whose tags under `adds` are (i, j). Each bin goes through the logistic function 1 / (1 + exp (−h)),
  and the result adds to s[b, p, q] three tenths (the single-precision constant both programs carry) of the bin named
  by the tags of p and q under `pos`.
-/
import Idealize.ShloMosaic.PureOps.Ideal
import Idealize.ShloMosaic.Lib.ValueIdx

noncomputable section

open scoped BigOperators

namespace Cert.Spec

open Idealize.ShloMosaic Idealize.ShloMosaic.ValueIdx

/-- The arc arrays `[32, 1024, 1024]`, the tag tables `[32, 1024]`. -/
abbrev SArc : Shape := ⟨3, ![32, 1024, 1024]⟩
abbrev STag : Shape := ⟨2, ![32, 1024]⟩

/-- The single-precision one and three tenths, as both programs spell them. -/
abbrev one : EReal := Ideal.ofBits .f32 0x3F800000#32
abbrev alpha : EReal := Ideal.ofBits .f32 0x3E99999A#32

/-- The logistic function as both programs spell it: `1 / (1 + exp (−x))`. -/
def sigm (x : EReal) : EReal := Ideal.div one (one + Ideal.exp (-x))

/-- One sentence's contribution to bin `(i, j)`: the scores of its token pairs tagged `(i, j)`. -/
def contrib (a : SArc.Idx → EReal) (adds : STag.Idx → BitVec 32) (b : Fin 32) (i j : Fin 1024) : EReal :=
  ∑ p : Fin 1024, ∑ q : Fin 1024,
    if (adds (ix2 b p)).toNat = i.val ∧ (adds (ix2 b q)).toNat = j.val then a (ix3 b p q) else 0

/-- THE PAIR HISTOGRAM: bin `(i, j)` over all 32 sentences. -/
def hist (a : SArc.Idx → EReal) (adds : STag.Idx → BitVec 32) (i j : Fin 1024) : EReal :=
  ∑ b : Fin 32, contrib a adds b i j

/-- A tag word as a bin coordinate (the word itself when it is below 1024). -/
def tag (w : BitVec 32) : Fin 1024 := ⟨w.toNat % 1024, Nat.mod_lt _ (by norm_num)⟩

theorem tag_val_of_lt {w : BitVec 32} (h : w.toNat < 1024) : (tag w).val = w.toNat := Nat.mod_eq_of_lt h

/-- THE RESULT at `(b, p, q)`. -/
def out (s a : SArc.Idx → EReal) (adds pos : STag.Idx → BitVec 32) : SArc.Idx → EReal := fun y =>
  s y + alpha * sigm (hist a adds (tag (pos (ix2 (y 0) (y 1)))) (tag (pos (ix2 (y 0) (y 2)))))

end Cert.Spec

end
-- ==== Proof.KIPayHist.lean ====
/-
  The histogram kernel's arithmetic at the extended reals, read at one bin.
-/
import proofs.«412019_j65403761984193_3_alg».proof.Proof.Gen.KernelIdeal.Skeleton
import proofs.«412019_j65403761984193_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Cert.Spec
open Idealize.ShloMosaic Idealize.ShloMosaic.ValueIdx

/-! ## The logistic function, the reset value, the output block -/

/-- The single-precision word of one is the real one. -/
theorem one_eq : (one : EReal) = 1 := by
  rw [show (1 : EReal) = ((1 : ℝ) : EReal) by norm_cast]
  simp [one, Ideal.ofBits, Ideal.ieee, -EReal.coe_mul]; norm_num

/-- The logistic function of a real is a real. -/
theorem sigm_real (x : ℝ) : ∃ r : ℝ, sigm (x : EReal) = (r : EReal) := by
  refine ⟨(1 + Real.exp (-x))⁻¹, ?_⟩
  have hpos : (0 : ℝ) < 1 + Real.exp (-x) := by positivity
  have hden : (one : EReal) + Ideal.exp (-(x : EReal)) = ((1 + Real.exp (-x) : ℝ) : EReal) := by
    rw [one_eq, ← EReal.coe_neg]
    show (1 : EReal) + ((Real.exp (-x) : ℝ) : EReal) = _
    rw [EReal.coe_add]; rfl
  unfold sigm
  rw [hden, one_eq]
  unfold Ideal.div
  rw [if_neg (by exact_mod_cast hpos.ne'), one_mul, ← EReal.coe_inv]

/-- The reset value of the accumulator is zero everywhere. -/
theorem pay2_apply (y : S1024x1024.Idx) : k0_pay2 (F := Ideal) y = 0 := by
  unfold k0_pay2
  show shapeCast S1024x1024 (broadcast S1024x1024 (Scalar.ofBits (F := Ideal) .f32 0x00000000#32)) shapeCasts_S1024x1024_S1024x1024 y = 0
  rw [shapeCast_self, broadcast_apply]
  exact Ideal.ofBits_zero_f32

/-- The output block is the accumulator under a leading axis of extent one. -/
theorem pay1_apply (v36 : Vec Ideal S1024x1024 .f32) (i j : Fin 1024) :
    k0_pay1 (F := Ideal) v36 (ix3 (0 : Fin 1) i j) = v36 (ix2 i j) := by
  unfold k0_pay1
  exact shapeCast_ab_1ab_apply (α := EReal) v36 shapeCasts_S1024x1024_S1x1024x1024 0 i j

/-! ## The one-hot matrix of the tags -/

/-- A vector `[a]` cast to the column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A 32-bit word equals the word of a number below 1024 exactly when its value is that number. -/
theorem word_eq_iff (w : BitVec 32) (i : Fin 1024) : w = BitVec.ofNat 32 i.val ↔ w.toNat = i.val := by
  have hi : i.val % 2 ^ 32 = i.val := Nat.mod_eq_of_lt (by have := i.isLt; omega)
  constructor
  · intro h; rw [h, BitVec.toNat_ofNat, hi]
  · intro h; apply BitVec.eq_of_toNat_eq; rw [BitVec.toNat_ofNat, hi, h]

/-- The comparison bit of two equal words, widened and converted, is one. -/
theorem conv_eq (w : BitVec 32) : (FloatOps.sitofp .f32 ((IntOp.cmpi .eq w w).setWidth 32) : Ideal .f32) = 1 := by
  have h : IntOp.cmpi .eq w w = 1#1 := by simp [IntOp.cmpi]
  rw [h]
  show (((BitVec.setWidth 32 1#1).toInt : ℝ) : EReal) = 1
  rw [show (BitVec.setWidth 32 1#1).toInt = 1 by decide]
  norm_num

/-- The comparison bit of two different words, widened and converted, is zero. -/
theorem conv_ne {w w' : BitVec 32} (hne : ¬w = w') : (FloatOps.sitofp .f32 ((IntOp.cmpi .eq w w').setWidth 32) : Ideal .f32) = 0 := by
  have hb : (w == w') = false := beq_eq_false_iff_ne.mpr hne
  have h : IntOp.cmpi .eq w w' = 0#1 := by
    show BitVec.ofBool (w == w') = 0#1
    rw [hb]; rfl
  rw [h]
  show (((BitVec.setWidth 32 0#1).toInt : ℝ) : EReal) = 0
  rw [show (BitVec.setWidth 32 0#1).toInt = 0 by decide]
  norm_num

/-- THE ONE-HOT ENTRY: token `p`'s tag word compared with the lane number `i`, widened and converted, is one when the
    tag is `i` and zero otherwise. -/
theorem onehot_apply (v6 : Vec Ideal S1x1024 .i32) (p i : Fin 1024) :
    (sitofp .f32 (extui 32 (cmpi .eq
        (broadcastTo S1024x1024 (shapeCast S1024x1 (shapeCast S1024 v6 shapeCasts_S1x1024_S1024) shapeCasts_S1024_S1024x1)
          broadcasts_S1024x1_S1024x1024)
        (iota .tc S1024x1024 32 [1] iota_S1024x1024_d1_w32)) natLt_1_32) : FVec Ideal S1024x1024 .f32) (ix2 p i)
      = if (v6 (ix2 (0 : Fin 1) p)).toNat = i.val then 1 else 0 := by
  rw [sitofp_apply, extui_apply]
  have hc : cmpi .eq
        (broadcastTo S1024x1024 (shapeCast S1024x1 (shapeCast S1024 v6 shapeCasts_S1x1024_S1024) shapeCasts_S1024_S1024x1)
          broadcasts_S1024x1_S1024x1024)
        (iota .tc S1024x1024 32 [1] iota_S1024x1024_d1_w32) (ix2 p i)
      = IntOp.cmpi .eq (v6 (ix2 (0 : Fin 1) p)) (BitVec.ofNat 32 i.val) := by
    show IntOp.cmpi .eq _ _ = _
    rw [broadcastTo_a1_ab_apply, shapeCast_a_a1_apply, shapeCast_1a_a_apply, iota_single_apply]
  rw [hc]
  by_cases h : (v6 (ix2 (0 : Fin 1) p)).toNat = i.val
  · rw [if_pos h, (word_eq_iff _ _).mpr h]
    exact conv_eq _
  · rw [if_neg h]
    exact conv_ne fun e => h ((word_eq_iff _ _).mp e)

/-! ## The two matrix products read at an index -/

/-- The contraction of the first product (left axis 0 with right axis 0) has one axis … -/
theorem contr_rank_00 : dot_S1024x1024_S1024x1024_S1024x1024_0_0_1_1_n_n.contr.rank = 1 := rfl
/-- … and so has the second's (left axis 1 with right axis 0). -/
theorem contr_rank_10 : dot_S1024x1024_S1024x1024_S1024x1024_1_0_0_1_n_n.contr.rank = 1 := rfl

/-- First product, left operand, axis 0: the contracted coordinate. -/
theorem lhs_00_0 (j : S1024x1024.Idx) (k : dot_S1024x1024_S1024x1024_S1024x1024_0_0_1_1_n_n.contr.Idx) :
    (dot_S1024x1024_S1024x1024_S1024x1024_0_0_1_1_n_n.lhsIdx j k 0).val = (k ⟨0, by rw [contr_rank_00]; exact Nat.one_pos⟩).val :=
  dot_S1024x1024_S1024x1024_S1024x1024_0_0_1_1_n_n.lhsIdx_val_of_single rfl j k
/-- First product, left operand, axis 1: the result's row. -/
theorem lhs_00_1 (j : S1024x1024.Idx) (k : dot_S1024x1024_S1024x1024_S1024x1024_0_0_1_1_n_n.contr.Idx) :
    (dot_S1024x1024_S1024x1024_S1024x1024_0_0_1_1_n_n.lhsIdx j k 1).val = (j 0).val := by
  simp [DotDims.lhsIdx, dot_S1024x1024_S1024x1024_S1024x1024_0_0_1_1_n_n]; rfl
/-- First product, right operand, axis 0: the contracted coordinate. -/
theorem rhs_00_0 (j : S1024x1024.Idx) (k : dot_S1024x1024_S1024x1024_S1024x1024_0_0_1_1_n_n.contr.Idx) :
    (dot_S1024x1024_S1024x1024_S1024x1024_0_0_1_1_n_n.rhsIdx j k 0).val = (k ⟨0, by rw [contr_rank_00]; exact Nat.one_pos⟩).val :=
  dot_S1024x1024_S1024x1024_S1024x1024_0_0_1_1_n_n.rhsIdx_val_of_single rfl j k
/-- First product, right operand, axis 1: the result's column. -/
theorem rhs_00_1 (j : S1024x1024.Idx) (k : dot_S1024x1024_S1024x1024_S1024x1024_0_0_1_1_n_n.contr.Idx) :
    (dot_S1024x1024_S1024x1024_S1024x1024_0_0_1_1_n_n.rhsIdx j k 1).val = (j 1).val := by
  simp [DotDims.rhsIdx, dot_S1024x1024_S1024x1024_S1024x1024_0_0_1_1_n_n]; rfl

/-- THE FIRST PRODUCT at `(i, q)`: the sum over the rows `p` of both operands. -/
theorem matmul_00_apply (A B : FVec Ideal S1024x1024 .bf16) (i q : Fin 1024) :
    matmul dot_S1024x1024_S1024x1024_S1024x1024_0_0_1_1_n_n none A B (constant (F := Ideal) S1024x1024 .f32 0x00000000#32) (ix2 i q)
      = ∑ p : Fin 1024, A (ix2 p i) * B (ix2 p q) := by
  show FloatOps.matmul _ none A B _ (ix2 i q) = _
  rw [Ideal.matmul_constant_zero_apply,
    ← Equiv.sum_comp (contrEquiv1 dot_S1024x1024_S1024x1024_S1024x1024_0_0_1_1_n_n 1024 rfl rfl).symm]
  refine Finset.sum_congr rfl fun c _ => ?_
  have hc := contrEquiv1_symm_val dot_S1024x1024_S1024x1024_S1024x1024_0_0_1_1_n_n 1024 rfl rfl c
  have hl : dot_S1024x1024_S1024x1024_S1024x1024_0_0_1_1_n_n.lhsIdx (ix2 i q)
      ((contrEquiv1 dot_S1024x1024_S1024x1024_S1024x1024_0_0_1_1_n_n 1024 rfl rfl).symm c) = ix2 c i := by
    funext ax; apply Fin.ext
    match ax with
    | ⟨0, _⟩ => exact (lhs_00_0 _ _).trans hc
    | ⟨1, _⟩ => exact lhs_00_1 _ _
  have hr : dot_S1024x1024_S1024x1024_S1024x1024_0_0_1_1_n_n.rhsIdx (ix2 i q)
      ((contrEquiv1 dot_S1024x1024_S1024x1024_S1024x1024_0_0_1_1_n_n 1024 rfl rfl).symm c) = ix2 c q := by
    funext ax; apply Fin.ext
    match ax with
    | ⟨0, _⟩ => exact (rhs_00_0 _ _).trans hc
    | ⟨1, _⟩ => exact rhs_00_1 _ _
  rw [hl, hr]

/-- Second product, left operand, axis 0: the result's row. -/
theorem lhs_10_0 (j : S1024x1024.Idx) (k : dot_S1024x1024_S1024x1024_S1024x1024_1_0_0_1_n_n.contr.Idx) :
    (dot_S1024x1024_S1024x1024_S1024x1024_1_0_0_1_n_n.lhsIdx j k 0).val = (j 0).val := by
  simp [DotDims.lhsIdx, dot_S1024x1024_S1024x1024_S1024x1024_1_0_0_1_n_n]; rfl
/-- Second product, left operand, axis 1: the contracted coordinate. -/
theorem lhs_10_1 (j : S1024x1024.Idx) (k : dot_S1024x1024_S1024x1024_S1024x1024_1_0_0_1_n_n.contr.Idx) :
    (dot_S1024x1024_S1024x1024_S1024x1024_1_0_0_1_n_n.lhsIdx j k 1).val = (k ⟨0, by rw [contr_rank_10]; exact Nat.one_pos⟩).val :=
  dot_S1024x1024_S1024x1024_S1024x1024_1_0_0_1_n_n.lhsIdx_val_of_single rfl j k
/-- Second product, right operand, axis 0: the contracted coordinate. -/
theorem rhs_10_0 (j : S1024x1024.Idx) (k : dot_S1024x1024_S1024x1024_S1024x1024_1_0_0_1_n_n.contr.Idx) :
    (dot_S1024x1024_S1024x1024_S1024x1024_1_0_0_1_n_n.rhsIdx j k 0).val = (k ⟨0, by rw [contr_rank_10]; exact Nat.one_pos⟩).val :=
  dot_S1024x1024_S1024x1024_S1024x1024_1_0_0_1_n_n.rhsIdx_val_of_single rfl j k
/-- Second product, right operand, axis 1: the result's column. -/
theorem rhs_10_1 (j : S1024x1024.Idx) (k : dot_S1024x1024_S1024x1024_S1024x1024_1_0_0_1_n_n.contr.Idx) :
    (dot_S1024x1024_S1024x1024_S1024x1024_1_0_0_1_n_n.rhsIdx j k 1).val = (j 1).val := by
  simp [DotDims.rhsIdx, dot_S1024x1024_S1024x1024_S1024x1024_1_0_0_1_n_n]; rfl

/-- THE SECOND PRODUCT at `(i, j)`: the sum over the left operand's columns `q`, the right operand's rows. -/
theorem matmul_10_apply (A B : FVec Ideal S1024x1024 .bf16) (i j : Fin 1024) :
    matmul dot_S1024x1024_S1024x1024_S1024x1024_1_0_0_1_n_n none A B (constant (F := Ideal) S1024x1024 .f32 0x00000000#32) (ix2 i j)
      = ∑ q : Fin 1024, A (ix2 i q) * B (ix2 q j) := by
  show FloatOps.matmul _ none A B _ (ix2 i j) = _
  rw [Ideal.matmul_constant_zero_apply,
    ← Equiv.sum_comp (contrEquiv1 dot_S1024x1024_S1024x1024_S1024x1024_1_0_0_1_n_n 1024 rfl rfl).symm]
  refine Finset.sum_congr rfl fun c _ => ?_
  have hc := contrEquiv1_symm_val dot_S1024x1024_S1024x1024_S1024x1024_1_0_0_1_n_n 1024 rfl rfl c
  have hl : dot_S1024x1024_S1024x1024_S1024x1024_1_0_0_1_n_n.lhsIdx (ix2 i j)
      ((contrEquiv1 dot_S1024x1024_S1024x1024_S1024x1024_1_0_0_1_n_n 1024 rfl rfl).symm c) = ix2 i c := by
    funext ax; apply Fin.ext
    match ax with
    | ⟨0, _⟩ => exact lhs_10_0 _ _
    | ⟨1, _⟩ => exact (lhs_10_1 _ _).trans hc
  have hr : dot_S1024x1024_S1024x1024_S1024x1024_1_0_0_1_n_n.rhsIdx (ix2 i j)
      ((contrEquiv1 dot_S1024x1024_S1024x1024_S1024x1024_1_0_0_1_n_n 1024 rfl rfl).symm c) = ix2 c j := by
    funext ax; apply Fin.ext
    match ax with
    | ⟨0, _⟩ => exact (rhs_10_0 _ _).trans hc
    | ⟨1, _⟩ => exact rhs_10_1 _ _
  rw [hl, hr]

/-! ## The real-number algebra of the two one-hot products -/

/-- The coercion of a finite sum of reals is the sum of the coercions. -/
theorem coe_sum {ι : Type} (s : Finset ι) (f : ι → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- A zero-or-one choice at the extended reals is the coercion of the real one. -/
theorem coe_ite_one (c : Prop) [Decidable c] : (if c then (1 : EReal) else 0) = (((if c then (1 : ℝ) else 0) : ℝ) : EReal) := by
  split <;> simp

/-- A real-or-zero choice at the extended reals is the coercion of the real one. -/
theorem coe_ite_zero (c : Prop) [Decidable c] (x : ℝ) : (if c then (x : EReal) else 0) = (((if c then x else 0) : ℝ) : EReal) := by
  split <;> simp

/-- Selecting rows by `P` on the left and columns by `Q` on the right leaves the entries with both. -/
theorem onehot_sums {n : ℕ} (P Q : Fin n → Prop) [DecidablePred P] [DecidablePred Q] (r : Fin n → Fin n → ℝ) :
    ∑ q, (∑ p, (if P p then (1 : ℝ) else 0) * r p q) * (if Q q then (1 : ℝ) else 0)
      = ∑ p, ∑ q, if P p ∧ Q q then r p q else 0 := by
  simp only [Finset.sum_mul]
  rw [Finset.sum_comm]
  refine Finset.sum_congr rfl fun p _ => Finset.sum_congr rfl fun q _ => ?_
  by_cases hp : P p <;> by_cases hq : Q q <;> simp [hp, hq]

/-- THE ACCUMULATION STEP at bin `(i, j)`: the old accumulator plus the scores of this sentence's token pairs tagged
    `(i, j)` — the two one-hot products collapse to that filtered double sum, and each low half `x − x` vanishes because
    the scores are real. -/
theorem pay3_apply (v6 : Vec Ideal S1x1024 .i32) (v15 : Vec Ideal S1x1024x1024 .f32) (v31 : Vec Ideal S1024x1024 .f32)
    (hfin : ∀ y, ∃ r : ℝ, v15 y = (r : EReal)) (i j : Fin 1024) :
    k0_pay3 (F := Ideal) v6 v15 v31 (ix2 i j)
      = v31 (ix2 i j) + ∑ p : Fin 1024, ∑ q : Fin 1024,
          if (v6 (ix2 (0 : Fin 1) p)).toNat = i.val ∧ (v6 (ix2 (0 : Fin 1) q)).toNat = j.val then v15 (ix3 (0 : Fin 1) p q) else 0 := by
  choose r hr using hfin
  unfold k0_pay3
  dsimp only
  rw [shapeCast_self]
  simp only [addf_apply, matmul_10_apply, truncf_apply, subf_apply, matmul_00_apply, onehot_apply, shapeCast_1ab_ab_apply, hr]
  have t := onehot_apply v6
  simp only [t]
  -- every entry is now a real: push the coercion outwards; the low halves `x − x` become zero
  simp only [coe_ite_one, coe_ite_zero, ← EReal.coe_sub, ← EReal.coe_mul, ← coe_sum, ← EReal.coe_add, sub_self, mul_zero,
    zero_mul, Finset.sum_const_zero, add_zero]
  exact congrArg (fun z : ℝ => v31 (ix2 i j) + (z : EReal))
    (onehot_sums (fun p => (v6 (ix2 (0 : Fin 1) p)).toNat = i.val) (fun q => (v6 (ix2 (0 : Fin 1) q)).toNat = j.val)
      (fun p q => r (ix3 (0 : Fin 1) p q)))

end Cert.KernelIdeal.Pay

end
-- ==== Proof.KIHistValue.lean ====
/-
  What the histogram region leaves in its output array, at the extended reals: each half's 1024 × 1024 block is the sum of
  its sixteen sentences' contributions.

  The body keeps an accumulator across grid positions: at a position ≡ 0 (mod 16) it starts from zero, elsewhere from
  what the position before left, and in both cases adds the position's sentence; the output block is a copy of the
  accumulator, written back to the array only after the last position of a half. So the accumulator after position
  `n` is the sum of the contributions of sentences `16 (n / 16) … n` (induction on the position), the block written back at
  `16 h + 15` is half `h`'s full sum, and the two written blocks tile the array.
-/
import proofs.«412019_j65403761984193_3_alg».proof.Proof.KI.Hist
import proofs.«412019_j65403761984193_3_alg».proof.Proof.KIPayHist

set_option maxRecDepth 16384

noncomputable section

open scoped BigOperators

namespace Cert.KernelIdeal.HistValue

open Cert.KernelIdeal Cert.KernelIdeal.Gen Cert.KernelIdeal.Hand Cert.KernelIdeal.Pay Cert.Spec
open Idealize.ShloMosaic Idealize.ShloMosaic.TcCoe Idealize.ShloMosaic.ValueIdx Idealize.ShloMosaic.Tactic
open Idealize.SL.Sem
open Idealize.ShloMosaic.Pipeline (Dat)

/-! ## What each case of the body leaves, as the kernel's arithmetic of what it loads -/

section Pieces
variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The row of the tag table the body loads at grid coordinates `i`: one row of 1024 tags, at the offsets the kernel
    computes from the coordinates. -/
abbrev tagRow (i : grid0.Coords) (x1 : Vec F S32x1024 .i32) : Vec F S1x1024 .i32 :=
  View.ld x1 (Rect.unit (s := S32x1024) (k0_off1 i) S1x1024.size (k0_off1_inb i))

/-- CARRYING CASE, the accumulator: the old accumulator `xs0` stepped by this sentence's row and block. -/
theorem acc_carry (c : Dev nD) (i : grid0.Coords) (arg2 : Memref sig .tc .vmem S1x1024x1024 .f32) (harg2 : arg2.IsWhole) (arg3 : Memref sig .tc .vmem S32x1024 .i32) (harg3 : arg3.IsWhole) (arg4 : Memref sig .tc .vmem S1x1024x1024 .f32) (harg4 : arg4.IsWhole) (arg5 : Memref sig .tc .vmem S1024x1024 .f32) (harg5 : arg5.IsWhole) (hc0 : ¬cond0 i)
    (x0 : Vec F S1x1024x1024 .f32) (x1 : Vec F S32x1024 .i32) (xs0 : Vec F S1024x1024 .f32) :
    sout0_B c i arg2 harg2 arg3 harg3 arg4 harg4 arg5 harg5 hc0 x0 x1 xs0 = k0_pay3 (tagRow i x1) x0 xs0 := by
  unfold sout0_B
  rw [View.read_writes_eq_canon _ _ _ (scover0_B c i arg2 harg2 arg3 harg3 arg4 harg4 arg5 harg5 hc0 x0 x1 xs0)]
  unfold kernelRun0_B
  dsimp only
  sl_unfold_run_names
  rw [View.canon_unit_zero zeros2]
  simp only [View.readAt_eq_ld, harg2.read_unread, harg3.read_unread, harg5.read_unread,
    View.ld_unit_zero (S := S1024x1024) zeros2, View.ld_unit_zero (S := S1x1024x1024) zeros3]

/-- CARRYING CASE, the output block: the new accumulator under a leading axis of extent one. -/
theorem out_carry (c : Dev nD) (i : grid0.Coords) (arg2 : Memref sig .tc .vmem S1x1024x1024 .f32) (harg2 : arg2.IsWhole) (arg3 : Memref sig .tc .vmem S32x1024 .i32) (harg3 : arg3.IsWhole) (arg4 : Memref sig .tc .vmem S1x1024x1024 .f32) (harg4 : arg4.IsWhole) (arg5 : Memref sig .tc .vmem S1024x1024 .f32) (harg5 : arg5.IsWhole) (hc0 : ¬cond0 i)
    (x0 : Vec F S1x1024x1024 .f32) (x1 : Vec F S32x1024 .i32) (xs0 : Vec F S1024x1024 .f32) :
    out0_B c i arg2 harg2 arg3 harg3 arg4 harg4 arg5 harg5 hc0 x0 x1 xs0 = k0_pay1 (k0_pay3 (tagRow i x1) x0 xs0) := by
  unfold out0_B
  rw [View.read_writes_eq_canon _ _ _ (cover0_B c i arg2 harg2 arg3 harg3 arg4 harg4 arg5 harg5 hc0 x0 x1 xs0)]
  unfold kernelRun0_B
  dsimp only
  sl_unfold_run_names
  rw [View.canon_unit_zero zeros3, View.readCov_cons_toLoadRect]
  simp only [View.readAt_eq_ld, harg2.read_unread, harg3.read_unread, harg5.read_unread,
    View.ld_unit_zero (S := S1024x1024) zeros2, View.ld_unit_zero (S := S1x1024x1024) zeros3]

/-- RESET CASE, the accumulator: the zero accumulator stepped by this sentence's row and block. -/
theorem acc_reset (c : Dev nD) (i : grid0.Coords) (arg2 : Memref sig .tc .vmem S1x1024x1024 .f32) (harg2 : arg2.IsWhole) (arg3 : Memref sig .tc .vmem S32x1024 .i32) (harg3 : arg3.IsWhole) (arg4 : Memref sig .tc .vmem S1x1024x1024 .f32) (harg4 : arg4.IsWhole) (arg5 : Memref sig .tc .vmem S1024x1024 .f32) (harg5 : arg5.IsWhole) (hc0 : cond0 i)
    (x0 : Vec F S1x1024x1024 .f32) (x1 : Vec F S32x1024 .i32) :
    sout0_A c i arg2 harg2 arg3 harg3 arg4 harg4 arg5 harg5 hc0 x0 x1 = k0_pay3 (tagRow i x1) x0 (k0_pay2 (F := F)) := by
  unfold sout0_A
  rw [View.read_writes_eq_canon _ _ _ (scover0_A c i arg2 harg2 arg3 harg3 arg4 harg4 arg5 harg5 hc0 x0 x1)]
  unfold kernelRun0_A
  dsimp only
  sl_unfold_run_names
  rw [View.canon_cons_unit_zero (S := S1024x1024) zeros2, View.readCov_cons_toLoadRect]
  simp only [View.readAt_eq_ld, harg2.read_unread, harg3.read_unread,
    View.ld_unit_zero (S := S1x1024x1024) zeros3]

/-- RESET CASE, the output block. -/
theorem out_reset (c : Dev nD) (i : grid0.Coords) (arg2 : Memref sig .tc .vmem S1x1024x1024 .f32) (harg2 : arg2.IsWhole) (arg3 : Memref sig .tc .vmem S32x1024 .i32) (harg3 : arg3.IsWhole) (arg4 : Memref sig .tc .vmem S1x1024x1024 .f32) (harg4 : arg4.IsWhole) (arg5 : Memref sig .tc .vmem S1024x1024 .f32) (harg5 : arg5.IsWhole) (hc0 : cond0 i)
    (x0 : Vec F S1x1024x1024 .f32) (x1 : Vec F S32x1024 .i32) :
    out0_A c i arg2 harg2 arg3 harg3 arg4 harg4 arg5 harg5 hc0 x0 x1 = k0_pay1 (k0_pay3 (tagRow i x1) x0 (k0_pay2 (F := F))) := by
  unfold out0_A
  rw [View.read_writes_eq_canon _ _ _ (cover0_A c i arg2 harg2 arg3 harg3 arg4 harg4 arg5 harg5 hc0 x0 x1)]
  unfold kernelRun0_A
  dsimp only
  sl_unfold_run_names
  rw [View.canon_unit_zero zeros3, View.readCov_cons_toLoadRect, View.readCov_cons_toLoadRect]
  simp only [View.readAt_eq_ld, harg2.read_unread, harg3.read_unread,
    View.ld_unit_zero (S := S1x1024x1024) zeros3]

end Pieces

variable (V : (c : Dev nD) → (b : Ref sig .tc) → Buf (Elt Ideal) ((c : Thread nD τ).loc b))

/-! ## The blocks the body reads at a grid position, as entries of the two arrays -/

/-- The grid has 32 positions: a position is a sentence number. -/
abbrev sent (t : Fin cfg0.N) : Fin 32 := ⟨t.val, by have := t.isLt; have hN : cfg0.N = 32 := N_0; omega⟩

/-- The printed index maps, decided over the grid: at position `t` the score window stands at block `(t, 0, 0)`, the
    tag window at its one block, the output window at block `(t / 16, 0, 0)`, and the row the body loads is row `t`. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 16 ∧ win0_2.index t (1 : Fin 3) = 0 ∧ win0_2.index t (2 : Fin 3) = 0
    ∧ k0_off1 (grid0.coords t) (0 : Fin 2) = t.val ∧ k0_off1 (grid0.coords t) (1 : Fin 2) = 0 :=
  (by decide +kernel : ∀ t : Fin grid0.N, _)

/-- Position `t`'s block of arc scores at `(0, p, q)` is entry `(t, p, q)` of the scores. -/
theorem arcBlk_apply (c : Dev nD) (t : Fin cfg0.N) (p q : Fin 1024) :
    (iblk0 V c 0 t : Vec Ideal S1x1024x1024 .f32) (ix3 (0 : Fin 1) p q)
      = (V c main_arg1 : S32x1024x1024.Idx → EReal) (ix3 (sent t) p q) := by
  obtain ⟨e0, e1, e2, -⟩ := index_facts t
  unfold iblk0
  rw [View.read_apply]
  show V c main_arg1 _ = V c main_arg1 _
  congr 1
  funext a
  apply Fin.ext
  match a with
  | ⟨0, _⟩ => show win0_0.index t (0 : Fin 3) * 1 + 1 * 0 = t.val; rw [e0]; omega
  | ⟨1, _⟩ => show win0_0.index t (1 : Fin 3) * 1024 + 1 * p.val = p.val; rw [e1]; omega
  | ⟨2, _⟩ => show win0_0.index t (2 : Fin 3) * 1024 + 1 * q.val = q.val; rw [e2]; omega

/-- The row of tags the body loads at position `t`, at `(0, p)`, is entry `(t, p)` of the tag table. -/
theorem tagRow_apply (c : Dev nD) (t : Fin cfg0.N) (p : Fin 1024) :
    tagRow (grid0.coords t) (iblk0 V c 1 t : Vec Ideal S32x1024 .i32) (ix2 (0 : Fin 1) p)
      = (V c main_arg2 : S32x1024.Idx → BitVec 32) (ix2 (sent t) p) := by
  obtain ⟨-, -, -, e3, e4, -, -, -, e8, e9⟩ := index_facts t
  show (iblk0 V c 1 t : Vec Ideal S32x1024 .i32) _ = _
  unfold iblk0
  rw [View.read_apply]
  show V c main_arg2 _ = V c main_arg2 _
  congr 1
  funext a
  apply Fin.ext
  match a with
  | ⟨0, _⟩ => show win0_1.index t (0 : Fin 2) * 32 + 1 * (k0_off1 (grid0.coords t) (0 : Fin 2) + 1 * 0) = t.val; rw [e3, e8]; omega
  | ⟨1, _⟩ => show win0_1.index t (1 : Fin 2) * 1024 + 1 * (k0_off1 (grid0.coords t) (1 : Fin 2) + 1 * p.val) = p.val; rw [e4, e9]; omega

/-! ## The accumulator after each position -/

/-- An index of a block with a leading axis of extent one has leading coordinate zero. -/
theorem eq_ix3_zero (y : S1x1024x1024.Idx) : y = ix3 (0 : Fin 1) (y 1) (y 2) := by
  funext a
  match a with
  | ⟨0, _⟩ => exact Fin.ext (by have h : (y 0).val < 1 := (y 0).isLt; show (y 0).val = 0; omega)
  | ⟨1, _⟩ => rfl
  | ⟨2, _⟩ => rfl

/-- ONE STEP at position `t`, at bin `(i, j)`: with real scores the body's accumulation adds sentence `t`'s
    contribution to whatever accumulator it is handed. -/
theorem step_apply (c : Dev nD)
    (hfin : ∀ y, ∃ r : ℝ, (V c main_arg1 : S32x1024x1024.Idx → EReal) y = (r : EReal))
    (t : Fin cfg0.N) (acc : Vec Ideal S1024x1024 .f32) (i j : Fin 1024) :
    k0_pay3 (F := Ideal) (tagRow (grid0.coords t) (iblk0 V c 1 t)) (iblk0 V c 0 t) acc (ix2 i j)
      = acc (ix2 i j) + contrib (V c main_arg1) (V c main_arg2) (sent t) i j := by
  refine (pay3_apply (tagRow (grid0.coords t) (iblk0 V c 1 t)) (iblk0 V c 0 t) acc ?_ i j).trans ?_
  · intro y
    obtain ⟨p, q, rfl⟩ : ∃ (p q : Fin 1024), y = ix3 (0 : Fin 1) p q := ⟨y 1, y 2, eq_ix3_zero y⟩
    obtain ⟨r, hr⟩ := hfin (ix3 (sent t) p q)
    exact ⟨r, (arcBlk_apply V c t p q).trans hr⟩
  · unfold contrib
    refine congrArg (acc (ix2 i j) + ·) ?_
    refine Finset.sum_congr rfl fun p _ => Finset.sum_congr rfl fun q _ => ?_
    rw [tagRow_apply V c t p, tagRow_apply V c t q, arcBlk_apply V c t p q]

/-- At a position ≡ 0 (mod 16) the accumulator is reset: afterwards it holds that sentence's contribution alone. -/
theorem acc_at_reset (c : Dev nD)
    (hfin : ∀ y, ∃ r : ℝ, (V c main_arg1 : S32x1024x1024.Idx → EReal) y = (r : EReal))
    (t : Fin cfg0.N) (h0 : t.val % 16 = 0) (i j : Fin 1024) :
    ((outsAt0 V c t.val t.isLt).2 : S1024x1024.Idx → EReal) (ix2 i j)
      = contrib (V c main_arg1) (V c main_arg2) (sent t) i j := by
  rw [outsAt0_A V c t h0]
  dsimp only
  refine (congrFun (acc_reset (F := Ideal) c (grid0.coords t) (ms0_0 t) (hs0_0 t) (ms0_1 t) (hs0_1 t) (ms0_2 t) (hs0_2 t) scM0 (Memref.isWhole_whole _) ((hcond0 t).mpr h0) (iblk0 V c 0 t) (iblk0 V c 1 t)) (ix2 i j)).trans ?_
  refine (step_apply V c hfin t (k0_pay2 (F := Ideal)) i j).trans ?_
  rw [pay2_apply, zero_add]

/-- Elsewhere it is carried: afterwards it holds what the position before left plus this sentence's contribution. -/
theorem acc_at_carry (c : Dev nD)
    (hfin : ∀ y, ∃ r : ℝ, (V c main_arg1 : S32x1024x1024.Idx → EReal) y = (r : EReal))
    (t : Fin cfg0.N) (h0 : ¬t.val % 16 = 0) (i j : Fin 1024) :
    ((outsAt0 V c t.val t.isLt).2 : S1024x1024.Idx → EReal) (ix2 i j)
      = ((outsAt0 V c (t.val - 1) (Nat.lt_of_le_of_lt (Nat.sub_le _ _) t.isLt)).2 : S1024x1024.Idx → EReal) (ix2 i j)
        + contrib (V c main_arg1) (V c main_arg2) (sent t) i j := by
  rw [outsAt0_B V c t h0]
  dsimp only
  refine (congrFun (acc_carry (F := Ideal) c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2) (ix2 i j)).trans ?_
  exact step_apply V c hfin t _ i j

/-- The output block after a position is the accumulator after it, under a leading axis of extent one. -/
theorem out_at (c : Dev nD) (t : Fin cfg0.N) (i j : Fin 1024) :
    ((outsAt0 V c t.val t.isLt).1 : S1x1024x1024.Idx → EReal) (ix3 (0 : Fin 1) i j)
      = ((outsAt0 V c t.val t.isLt).2 : S1024x1024.Idx → EReal) (ix2 i j) := by
  by_cases h0 : t.val % 16 = 0
  · rw [outsAt0_A V c t h0]
    dsimp only
    rw [out_reset (F := Ideal) c (grid0.coords t) (ms0_0 t) (hs0_0 t) (ms0_1 t) (hs0_1 t) (ms0_2 t) (hs0_2 t) scM0 (Memref.isWhole_whole _) ((hcond0 t).mpr h0) (iblk0 V c 0 t) (iblk0 V c 1 t),
      acc_reset (F := Ideal) c (grid0.coords t) (ms0_0 t) (hs0_0 t) (ms0_1 t) (hs0_1 t) (ms0_2 t) (hs0_2 t) scM0 (Memref.isWhole_whole _) ((hcond0 t).mpr h0) (iblk0 V c 0 t) (iblk0 V c 1 t)]
    exact pay1_apply _ i j
  · rw [outsAt0_B V c t h0]
    dsimp only
    rw [out_carry (F := Ideal) c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2,
      acc_carry (F := Ideal) c (grid0.coords t) (ms0_0 t) (hs0_0 t) (ms0_1 t) (hs0_1 t) (ms0_2 t) (hs0_2 t) scM0 (Memref.isWhole_whole _) (fun h => h0 ((hcond0 t).mp h)) (iblk0 V c 0 t) (iblk0 V c 1 t) (outsAt0 V c (t.val - 1) (Nat.lt_of_le_of_lt (Nat.sub_le _ _) t.isLt)).2]
    exact pay1_apply _ i j

/-- Sentence `k`'s contribution as a function of the bare number `k`: zero past the 32 sentences. -/
def contribAt (a : SArc.Idx → EReal) (adds : STag.Idx → BitVec 32) (k : ℕ) (i j : Fin 1024) : EReal :=
  if h : k < 32 then contrib a adds ⟨k, h⟩ i j else 0

theorem contribAt_sent (a : SArc.Idx → EReal) (adds : STag.Idx → BitVec 32) (t : Fin cfg0.N) (k : ℕ) (hk : k = t.val)
    (i j : Fin 1024) : contribAt a adds k i j = contrib a adds (sent t) i j := by
  subst hk
  unfold contribAt
  rw [dif_pos (sent t).isLt]

/-- THE ACCUMULATOR AFTER POSITION `n`: the contributions of the sentences of `n`'s half up to and including `n` —
    by induction on the position, through the two cases. -/
theorem acc_closed (c : Dev nD)
    (hfin : ∀ y, ∃ r : ℝ, (V c main_arg1 : S32x1024x1024.Idx → EReal) y = (r : EReal)) :
    ∀ (n : ℕ) (hn : n < cfg0.N) (i j : Fin 1024),
      ((outsAt0 V c n hn).2 : S1024x1024.Idx → EReal) (ix2 i j)
        = ∑ b ∈ Finset.range (n % 16 + 1), contribAt (V c main_arg1) (V c main_arg2) (16 * (n / 16) + b) i j := by
  intro n
  induction n using Nat.strong_induction_on with
  | _ n ih =>
    intro hn i j
    by_cases h0 : n % 16 = 0
    · refine (acc_at_reset V c hfin ⟨n, hn⟩ h0 i j).trans ?_
      rw [h0, Finset.sum_range_one]
      exact (contribAt_sent _ _ ⟨n, hn⟩ _ (by show 16 * (n / 16) + 0 = n; omega) i j).symm
    · refine (acc_at_carry V c hfin ⟨n, hn⟩ h0 i j).trans ?_
      have hpos : n - 1 < n := by omega
      have e1 : (n - 1) % 16 + 1 = n % 16 := by omega
      have e2 : (n - 1) / 16 = n / 16 := by omega
      show ((outsAt0 V c (n - 1) _).2 : S1024x1024.Idx → EReal) (ix2 i j) + _ = _
      rw [ih (n - 1) hpos _ i j, e1, e2, Finset.sum_range_succ]
      refine congrArg (_ + ·) ?_
      exact (contribAt_sent _ _ ⟨n, hn⟩ _ (by show 16 * (n / 16) + n % 16 = n; omega) i j).symm

/-! ## From the blocks to the array -/

/-- Half `h`'s bin `(i, j)`: the contributions of its sixteen sentences `16 h + b`. -/
def halfSum (a : SArc.Idx → EReal) (adds : STag.Idx → BitVec 32) (h : Fin 2) (i j : Fin 1024) : EReal :=
  ∑ b : Fin 16, contrib a adds ⟨16 * h.val + b.val, by have := h.isLt; have := b.isLt; omega⟩ i j

/-- The output array as one function of the two argument arrays: entry `(h, i, j)` is half `h`'s bin `(i, j)`. -/
def halves (a : SArc.Idx → EReal) (adds : STag.Idx → BitVec 32) : S2x1024x1024.Idx → EReal :=
  fun y => halfSum a adds (y 0) (y 1) (y 2)

/-- The half a position belongs to. -/
abbrev halfOf (t : Fin cfg0.N) : Fin 2 := ⟨t.val / 16, by have := t.isLt; have hN : cfg0.N = 32 := N_0; omega⟩

/-- A whole-array function read through the output window's block at position `t`: its half `t / 16`. -/
theorem read_outBlk (t : Fin cfg0.N) (G : S2x1024x1024.Idx → EReal) :
    ((cfg0.win 2).blk t).view.read (Elt Ideal) G = fun (y : S1x1024x1024.Idx) => G (ix3 (halfOf t) (y 1) (y 2)) := by
  obtain ⟨-, -, -, -, -, e5, e6, e7, -⟩ := index_facts t
  funext y
  rw [View.read_apply]
  show G _ = G _
  congr 1
  funext a
  apply Fin.ext
  have hy : (y 0).val < 1 := (y 0).isLt
  match a with
  | ⟨0, _⟩ => show win0_2.index t (0 : Fin 3) * 1 + 1 * (y 0).val = t.val / 16; rw [e5]; omega
  | ⟨1, _⟩ => show win0_2.index t (1 : Fin 3) * 1024 + 1 * (y 1).val = (y 1).val; rw [e6]; omega
  | ⟨2, _⟩ => show win0_2.index t (2 : Fin 3) * 1024 + 1 * (y 2).val = (y 2).val; rw [e7]; omega

/-- After the last position of a half (≡ 15 mod 16) the output block holds that half's sums. -/
theorem out_last (c : Dev nD)
    (hfin : ∀ y, ∃ r : ℝ, (V c main_arg1 : S32x1024x1024.Idx → EReal) y = (r : EReal))
    (t : Fin cfg0.N) (h15 : t.val % 16 = 15) :
    ((outsAt0 V c t.val t.isLt).1 : S1x1024x1024.Idx → EReal)
      = fun y => halves (V c main_arg1) (V c main_arg2) (ix3 (halfOf t) (y 1) (y 2)) := by
  funext y
  obtain ⟨p, q, rfl⟩ : ∃ (p q : Fin 1024), y = ix3 (0 : Fin 1) p q := ⟨y 1, y 2, eq_ix3_zero y⟩
  refine (out_at V c t p q).trans ?_
  refine (acc_closed V c hfin t.val t.isLt p q).trans ?_
  rw [h15, Finset.sum_range]
  show _ = halfSum _ _ (halfOf t) p q
  unfold halfSum
  refine Finset.sum_congr rfl fun b _ => ?_
  unfold contribAt
  have hb := b.isLt
  have ht := t.isLt
  have hN : cfg0.N = 32 := N_0
  rw [dif_pos (by omega : 16 * (t.val / 16) + b.val < 32)]

/-- WHAT A WRITING POSITION WRITES BACK is its block of `halves`. -/
theorem flushed_eq (c : Dev nD)
    (hfin : ∀ y, ∃ r : ℝ, (V c main_arg1 : S32x1024x1024.Idx → EReal) y = (r : EReal))
    (t : Fin cfg0.N) (hf : (cfg0.win 2).flush t = true) :
    (dat0 V c).flushed 2 t = ((cfg0.win 2).blk t).view.read (Elt Ideal) (halves (V c main_arg1) (V c main_arg2)) := by
  show (cfg0.win 2).cut (grid0.coords t) ((dat0 V c).after 2 t) = _
  rw [after0_2, read_outBlk]
  exact out_last V c hfin t ((flush0_2 t).mp hf)

/-- An entry of the array lies in position `t`'s block iff each coordinate is in the block's range on its axis. -/
theorem mem_outBlk (t : Fin cfg0.N) (i : S2x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every entry `(h, i, j)` lies in the block of the writing position `16 h + 15`. -/
theorem covered (i : S2x1024x1024.Idx) :
    ∃ t : Fin cfg0.N, (cfg0.win 2).flush t = true ∧ i ∈ ((cfg0.win 2).blk t).view.set := by
  have h0 : (i 0).val < 2 := (i 0).isLt
  have h1 : (i 1).val < 1024 := (i 1).isLt
  have h2 : (i 2).val < 1024 := (i 2).isLt
  have hN : cfg0.N = 32 := N_0
  obtain ⟨t, ht⟩ : ∃ t : Fin cfg0.N, t.val = 16 * (i 0).val + 15 := ⟨⟨16 * (i 0).val + 15, by omega⟩, rfl⟩
  obtain ⟨-, -, -, -, -, e5, e6, e7, -⟩ := index_facts t
  refine ⟨t, (flush0_2 t).mpr (by omega), ?_⟩
  rw [mem_outBlk]
  intro a
  match a with
  | ⟨0, _⟩ => show win0_2.index t (0 : Fin 3) * 1 ≤ (i 0).val ∧ (i 0).val < win0_2.index t (0 : Fin 3) * 1 + 1; rw [e5]; omega
  | ⟨1, _⟩ => show win0_2.index t (1 : Fin 3) * 1024 ≤ (i 1).val ∧ (i 1).val < win0_2.index t (1 : Fin 3) * 1024 + 1024; rw [e6]; omega
  | ⟨2, _⟩ => show win0_2.index t (2 : Fin 3) * 1024 ≤ (i 2).val ∧ (i 2).val < win0_2.index t (2 : Fin 3) * 1024 + 1024; rw [e7]; omega

/-- THE HISTOGRAM REGION'S RESULT: with real arc scores, entry `(h, i, j)` of the output array after the region is the
    sum over the sixteen sentences `16 h + b` of half `h` of their contributions to bin `(i, j)`. -/
theorem hist_arr (c : Dev nD)
    (hfin : ∀ y, ∃ r : ℝ, (V c main_arg1 : S32x1024x1024.Idx → EReal) y = (r : EReal))
    (h : Fin 2) (i j : Fin 1024) :
    ((dat0 (F := Ideal) V c).arrAt 2 cfg0.N : S2x1024x1024.Idx → EReal) (ix3 h i j)
      = ∑ b : Fin 16, contrib (V c main_arg1) (V c main_arg2) ⟨16 * h.val + b.val, by have := h.isLt; have := b.isLt; omega⟩ i j := by
  have e := (dat0 (F := Ideal) V c).arrAt_eq_of_cover 2 (halves (V c main_arg1) (V c main_arg2))
    (fun t hf => flushed_eq V c hfin t hf) covered
  exact congrFun e (ix3 h i j)

end Cert.KernelIdeal.HistValue

end
-- ==== Proof.KIPayGather.lean ====
/-
  The gather kernel's arithmetic at the extended reals, read at one entry.
-/
import proofs.«412019_j65403761984193_3_alg».proof.Proof.Gen.KernelIdeal.Skeleton
import proofs.«412019_j65403761984193_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Cert.Spec
open Idealize.ShloMosaic Idealize.ShloMosaic.ValueIdx

/-! ## The tag row spread over a square, and the one-hot table it gives -/

/-- The tag row `[1, 1024]`, stood up as a column and spread along the second axis, reads token `p`'s tag at `(p, i)`. -/
theorem rowSpread_apply (v1 : IVec S1x1024 32) (h1 : S1x1024.ShapeCasts S1024) (h2 : S1024.ShapeCasts S1024x1)
    (h3 : S1024x1.Broadcasts S1024x1024) (p i : Fin 1024) :
    broadcastTo S1024x1024 (shapeCast S1024x1 (shapeCast S1024 v1 h1) h2) h3 (ix2 p i) = v1 (ix2 (0 : Fin 1) p) := by
  refine (broadcastTo_apply _ h3 (ix2 p i) (ix2 p (0 : Fin 1)) fun a => ?_).trans ?_
  · match a with
    | ⟨0, _⟩ => rfl
    | ⟨1, _⟩ => rfl
  refine (shapeCast_apply _ h2 (ix2 p (0 : Fin 1)) (ix1 p) ?_).trans ?_
  · rw [Shape.rowMajor_val_one, Shape.rowMajor_val_two]
    show p.val = p.val * 1 + 0
    omega
  exact shapeCast_1a_a_apply v1 h1 p

/-- The lane counter along the second axis reads the second coordinate. -/
theorem laneIota_apply (h : S1024x1024.Iotas .tc 32 [1]) (p i : Fin 1024) :
    iota .tc S1024x1024 32 [1] h (ix2 p i) = BitVec.ofNat 32 i.val :=
  iota_single_apply .tc S1024x1024 32 1 h (ix2 p i)

/-- A 32-bit word is the word of a coordinate below 1024 exactly when its value is that coordinate. -/
theorem word_eq_ofNat_iff (w : BitVec 32) (i : Fin 1024) : w = BitVec.ofNat 32 i.val ↔ w.toNat = i.val := by
  have hi : i.val < 2 ^ 32 := lt_trans i.isLt (by norm_num)
  constructor
  · rintro rfl
    rw [BitVec.toNat_ofNat]
    exact Nat.mod_eq_of_lt hi
  · intro h
    apply BitVec.eq_of_toNat_eq
    rw [BitVec.toNat_ofNat, h]
    exact (Nat.mod_eq_of_lt hi).symm

/-- The comparison bit, widened and converted, is the indicator of equality. -/
theorem indicator_word (a b : BitVec 32) :
    FloatOps.sitofp (F := Ideal) .f32 ((IntOp.cmpi .eq a b).setWidth 32) = if a = b then (1 : EReal) else 0 := by
  by_cases h : a = b
  · subst h
    rw [if_pos rfl]
    have : IntOp.cmpi .eq a a = 1#1 := by simp [IntOp.cmpi]
    rw [this]
    show (((1#1 : BitVec 1).setWidth 32).toInt : ℝ) = ((1 : ℝ) : EReal)
    norm_num
  · rw [if_neg h]
    have hb : (a == b) = false := beq_eq_false_iff_ne.mpr h
    have : IntOp.cmpi .eq a b = 0#1 := by
      show BitVec.ofBool (a == b) = 0#1
      rw [hb]; rfl
    rw [this]
    show (((0#1 : BitVec 1).setWidth 32).toInt : ℝ) = ((0 : ℝ) : EReal)
    norm_num

/-! ## The two matrix products read at an entry -/

/-- For the product contracting the first factor's second axis with the second factor's first axis: the first factor is
    read at (row of the entry, contraction coordinate), the second at (contraction coordinate, column of the entry). -/
theorem rowByCol_lhs_0 (j : S1024x1024.Idx) (k : dot_S1024x1024_S1024x1024_S1024x1024_1_0_0_1_n_n.contr.Idx) :
    (dot_S1024x1024_S1024x1024_S1024x1024_1_0_0_1_n_n.lhsIdx j k 0).val = (j 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem rowByCol_lhs_1 (j : S1024x1024.Idx) (k : dot_S1024x1024_S1024x1024_S1024x1024_1_0_0_1_n_n.contr.Idx) :
    (dot_S1024x1024_S1024x1024_S1024x1024_1_0_0_1_n_n.lhsIdx j k 1).val = (k ⟨0, by decide⟩).val :=
  dot_S1024x1024_S1024x1024_S1024x1024_1_0_0_1_n_n.lhsIdx_val_of_single rfl j k

theorem rowByCol_rhs_0 (j : S1024x1024.Idx) (k : dot_S1024x1024_S1024x1024_S1024x1024_1_0_0_1_n_n.contr.Idx) :
    (dot_S1024x1024_S1024x1024_S1024x1024_1_0_0_1_n_n.rhsIdx j k 0).val = (k ⟨0, by decide⟩).val :=
  dot_S1024x1024_S1024x1024_S1024x1024_1_0_0_1_n_n.rhsIdx_val_of_single rfl j k

theorem rowByCol_rhs_1 (j : S1024x1024.Idx) (k : dot_S1024x1024_S1024x1024_S1024x1024_1_0_0_1_n_n.contr.Idx) :
    (dot_S1024x1024_S1024x1024_S1024x1024_1_0_0_1_n_n.rhsIdx j k 1).val = (j 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- A product contracting the first factor's second axis with the second factor's first axis, into the zero
    accumulator, read at `(p, j)`: the sum over `i` of `A[p, i] · B[i, j]`. -/
theorem rowByCol_apply {φ₁ φ₂ : FTy} (A : FVec Ideal S1024x1024 φ₁) (B : FVec Ideal S1024x1024 φ₂) (p j : Fin 1024) :
    matmul dot_S1024x1024_S1024x1024_S1024x1024_1_0_0_1_n_n none A B (constant (F := Ideal) S1024x1024 .f32 0x00000000#32) (ix2 p j)
      = ∑ i : Fin 1024, A (ix2 p i) * B (ix2 i j) := by
  show FloatOps.matmul _ none A B _ (ix2 p j) = _
  rw [Ideal.matmul_constant_zero_apply,
    ← Equiv.sum_comp (contrEquiv1 dot_S1024x1024_S1024x1024_S1024x1024_1_0_0_1_n_n 1024 rfl rfl).symm]
  refine Finset.sum_congr rfl fun i _ => ?_
  have hk := contrEquiv1_symm_val dot_S1024x1024_S1024x1024_S1024x1024_1_0_0_1_n_n 1024 rfl rfl i
  have hl : dot_S1024x1024_S1024x1024_S1024x1024_1_0_0_1_n_n.lhsIdx (ix2 p j)
      ((contrEquiv1 _ 1024 rfl rfl).symm i) = ix2 p i := by
    funext a; apply Fin.ext
    match a with
    | ⟨0, _⟩ => exact rowByCol_lhs_0 _ _
    | ⟨1, _⟩ => exact (rowByCol_lhs_1 _ _).trans hk
  have hr : dot_S1024x1024_S1024x1024_S1024x1024_1_0_0_1_n_n.rhsIdx (ix2 p j)
      ((contrEquiv1 _ 1024 rfl rfl).symm i) = ix2 i j := by
    funext a; apply Fin.ext
    match a with
    | ⟨0, _⟩ => exact (rowByCol_rhs_0 _ _).trans hk
    | ⟨1, _⟩ => exact rowByCol_rhs_1 _ _
  rw [hl, hr]

/-- For the product contracting both factors' second axes: the first factor is read at (row of the entry, contraction
    coordinate), the second at (column of the entry, contraction coordinate). -/
theorem rowByRow_lhs_0 (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

theorem rowByRow_lhs_1 (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k

theorem rowByRow_rhs_0 (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

theorem rowByRow_rhs_1 (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- A product contracting both factors' second axes, into the zero accumulator, read at `(p, q)`: the sum over
    `j` of `A[p, j] · B[q, j]`. -/
theorem rowByRow_apply {φ₁ φ₂ : FTy} (A : FVec Ideal S1024x1024 φ₁) (B : FVec Ideal S1024x1024 φ₂) (p q : Fin 1024) :
    matmul dot_S1024x1024_S1024x1024_S1024x1024_1_1_0_0_n_n none A B (constant (F := Ideal) S1024x1024 .f32 0x00000000#32) (ix2 p q)
      = ∑ j : Fin 1024, A (ix2 p j) * B (ix2 q j) := by
  show FloatOps.matmul _ none A B _ (ix2 p q) = _
  rw [Ideal.matmul_constant_zero_apply,
    ← Equiv.sum_comp (contrEquiv1 dot_S1024x1024_S1024x1024_S1024x1024_1_1_0_0_n_n 1024 rfl rfl).symm]
  refine Finset.sum_congr rfl fun j _ => ?_
  have hk := contrEquiv1_symm_val dot_S1024x1024_S1024x1024_S1024x1024_1_1_0_0_n_n 1024 rfl rfl j
  have hl : dot_S1024x1024_S1024x1024_S1024x1024_1_1_0_0_n_n.lhsIdx (ix2 p q)
      ((contrEquiv1 _ 1024 rfl rfl).symm j) = ix2 p j := by
    funext a; apply Fin.ext
    match a with
    | ⟨0, _⟩ => exact rowByRow_lhs_0 _ _
    | ⟨1, _⟩ => exact (rowByRow_lhs_1 _ _).trans hk
  have hr : dot_S1024x1024_S1024x1024_S1024x1024_1_1_0_0_n_n.rhsIdx (ix2 p q)
      ((contrEquiv1 _ 1024 rfl rfl).symm j) = ix2 q j := by
    funext a; apply Fin.ext
    match a with
    | ⟨0, _⟩ => exact rowByRow_rhs_0 _ _
    | ⟨1, _⟩ => exact (rowByRow_rhs_1 _ _).trans hk
  rw [hl, hr]

/-! ## The one-hot table and the sums it collapses -/

/-- The one-hot table of a tag row: entry `(p, i)` is one when token `p` carries tag `i`, else zero. -/
def oneHot (v1 : IVec S1x1024 32) : FVec Ideal S1024x1024 .bf16 :=
  truncf .bf16 (sitofp (F := Ideal) .f32 (extui 32 (cmpi .eq
    (broadcastTo S1024x1024 (shapeCast S1024x1 (shapeCast S1024 v1 shapeCasts_S1x1024_S1024) shapeCasts_S1024_S1024x1)
      broadcasts_S1024x1_S1024x1024)
    (iota .tc S1024x1024 32 [1] iota_S1024x1024_d1_w32)) natLt_1_32)) bitsLt_bf16_f32

/-- Read at `(p, i)`: the comparison of token `p`'s tag word with the word of `i`, as zero or one. -/
theorem oneHot_apply (v1 : IVec S1x1024 32) (p i : Fin 1024) :
    oneHot v1 (ix2 p i) = if (v1 (ix2 (0 : Fin 1) p)).toNat = i.val then (1 : EReal) else 0 := by
  show FloatOps.sitofp (F := Ideal) .f32 ((IntOp.cmpi .eq
    (broadcastTo S1024x1024 (shapeCast S1024x1 (shapeCast S1024 v1 shapeCasts_S1x1024_S1024) shapeCasts_S1024_S1024x1)
      broadcasts_S1024x1_S1024x1024 (ix2 p i))
    (iota .tc S1024x1024 32 [1] iota_S1024x1024_d1_w32 (ix2 p i))).setWidth 32) = _
  rw [rowSpread_apply, laneIota_apply, indicator_word]
  exact if_congr (word_eq_ofNat_iff _ i) rfl rfl

/-- A sum against an indicator keeps the one term it marks. -/
theorem sum_indicator_mul (n : ℕ) (h : n < 1024) (f : Fin 1024 → EReal) :
    ∑ i : Fin 1024, (if n = i.val then (1 : EReal) else 0) * f i = f ⟨n, h⟩ := by
  rw [Finset.sum_eq_single (⟨n, h⟩ : Fin 1024)]
  · rw [if_pos rfl, one_mul]
  · intro b _ hb
    rw [if_neg (fun e => hb (Fin.ext e.symm)), zero_mul]
  · intro h'
    exact absurd (Finset.mem_univ _) h'

/-- The same with the indicator as the second factor. -/
theorem sum_mul_indicator (n : ℕ) (h : n < 1024) (f : Fin 1024 → EReal) :
    ∑ i : Fin 1024, f i * (if n = i.val then (1 : EReal) else 0) = f ⟨n, h⟩ := by
  rw [← sum_indicator_mul n h f]
  exact Finset.sum_congr rfl fun i _ => mul_comm _ _

/-! ## The rows the tags pick, and the entry -/

/-- The table's rows picked by the tags: the one-hot table times the table, plus the one-hot table times the
    table's low half (the table less itself). -/
def pickedRows (v1 : IVec S1x1024 32) (v10 : FVec Ideal S1024x1024 .f32) : FVec Ideal S1024x1024 .f32 :=
  addf
    (matmul dot_S1024x1024_S1024x1024_S1024x1024_1_0_0_1_n_n none (oneHot v1)
      (truncf .bf16 (shapeCast S1024x1024 v10 shapeCasts_S1024x1024_S1024x1024) bitsLt_bf16_f32)
      (constant S1024x1024 .f32 0x00000000#32))
    (matmul dot_S1024x1024_S1024x1024_S1024x1024_1_0_0_1_n_n none (oneHot v1)
      (truncf .bf16 (subf (shapeCast S1024x1024 v10 shapeCasts_S1024x1024_S1024x1024)
        (shapeCast S1024x1024 v10 shapeCasts_S1024x1024_S1024x1024)) bitsLt_bf16_f32)
      (constant S1024x1024 .f32 0x00000000#32))

/-- Row `p` of the picked rows is the table's row at token `p`'s tag: the first product keeps the one term the
    one-hot row marks, and the second is a sum of zeros because a real entry less itself is zero. -/
theorem pickedRows_apply (v1 : IVec S1x1024 32) (v10 : FVec Ideal S1024x1024 .f32)
    (hfin : ∀ y, ∃ r : ℝ, v10 y = (r : EReal)) (hrange : ∀ p : Fin 1024, (v1 (ix2 (0 : Fin 1) p)).toNat < 1024)
    (p j : Fin 1024) :
    pickedRows v1 v10 (ix2 p j) = v10 (ix2 (tag (v1 (ix2 (0 : Fin 1) p))) j) := by
  choose t ht using hfin
  have hp := hrange p
  have htag : (⟨(v1 (ix2 (0 : Fin 1) p)).toNat, hp⟩ : Fin 1024) = tag (v1 (ix2 (0 : Fin 1) p)) :=
    Fin.ext (tag_val_of_lt hp).symm
  have e1 : ∑ i : Fin 1024, oneHot v1 (ix2 p i)
      * (truncf .bf16 (shapeCast S1024x1024 v10 shapeCasts_S1024x1024_S1024x1024) bitsLt_bf16_f32 : FVec Ideal S1024x1024 .bf16) (ix2 i j)
      = v10 (ix2 (tag (v1 (ix2 (0 : Fin 1) p))) j) := by
    rw [← htag, ← sum_indicator_mul _ hp (fun i => v10 (ix2 i j))]
    refine Finset.sum_congr rfl fun i _ => ?_
    rw [oneHot_apply, truncf_apply, shapeCast_self]
  have e2 : ∑ i : Fin 1024, oneHot v1 (ix2 p i)
      * (truncf .bf16 (subf (shapeCast S1024x1024 v10 shapeCasts_S1024x1024_S1024x1024)
          (shapeCast S1024x1024 v10 shapeCasts_S1024x1024_S1024x1024)) bitsLt_bf16_f32 : FVec Ideal S1024x1024 .bf16) (ix2 i j)
      = 0 := by
    refine Finset.sum_eq_zero fun i _ => ?_
    rw [truncf_apply, subf_apply, shapeCast_self, ht, ← EReal.coe_sub, sub_self, EReal.coe_zero, mul_zero]
  show matmul _ none (oneHot v1) _ _ (ix2 p j) + matmul _ none (oneHot v1) _ _ (ix2 p j) = _
  rw [rowByCol_apply, rowByCol_apply, e1, e2, add_zero]

/-- THE GATHER STEP at `(p, q)`: the arc score plus three tenths of the table's entry at the tags of `p` and `q` — the
    two one-hot products select that one entry when the tags are below 1024, and each low half `x − x` vanishes because
    the table is real. -/
theorem gather_pay_apply (v1 : Vec Ideal S1x1024 .i32) (v10 : Vec Ideal S1024x1024 .f32) (v26 : Vec Ideal S1x1024x1024 .f32)
    (hfin : ∀ y, ∃ r : ℝ, v10 y = (r : EReal)) (hrange : ∀ p : Fin 1024, (v1 (ix2 (0 : Fin 1) p)).toNat < 1024) (p q : Fin 1024) :
    k1_pay1 (F := Ideal) v1 v10 v26 (ix3 (0 : Fin 1) p q)
      = v26 (ix3 (0 : Fin 1) p q) + alpha * v10 (ix2 (tag (v1 (ix2 (0 : Fin 1) p))) (tag (v1 (ix2 (0 : Fin 1) q)))) := by
  have hrows := pickedRows_apply v1 v10 hfin hrange
  choose t ht using hfin
  have hq := hrange q
  have htag : (⟨(v1 (ix2 (0 : Fin 1) q)).toNat, hq⟩ : Fin 1024) = tag (v1 (ix2 (0 : Fin 1) q)) :=
    Fin.ext (tag_val_of_lt hq).symm
  have e1 : ∑ j : Fin 1024, (truncf .bf16 (pickedRows v1 v10) bitsLt_bf16_f32 : FVec Ideal S1024x1024 .bf16) (ix2 p j)
      * oneHot v1 (ix2 q j) = v10 (ix2 (tag (v1 (ix2 (0 : Fin 1) p))) (tag (v1 (ix2 (0 : Fin 1) q)))) := by
    rw [← htag, ← sum_mul_indicator _ hq (fun j => v10 (ix2 (tag (v1 (ix2 (0 : Fin 1) p))) j))]
    refine Finset.sum_congr rfl fun j _ => ?_
    rw [oneHot_apply, truncf_apply, hrows]
  have e2 : ∑ j : Fin 1024, (truncf .bf16 (subf (pickedRows v1 v10) (pickedRows v1 v10)) bitsLt_bf16_f32 : FVec Ideal S1024x1024 .bf16) (ix2 p j)
      * oneHot v1 (ix2 q j) = 0 := by
    refine Finset.sum_eq_zero fun j _ => ?_
    rw [truncf_apply, subf_apply, hrows, ht, ← EReal.coe_sub, sub_self, EReal.coe_zero, zero_mul]
  show shapeCast S1x1024x1024 (addf (shapeCast S1024x1024 v26 shapeCasts_S1x1024x1024_S1024x1024)
    (mulf (broadcast S1024x1024 (Scalar.ofBits (F := Ideal) .f32 0x3E99999A#32))
      (addf
        (matmul dot_S1024x1024_S1024x1024_S1024x1024_1_1_0_0_n_n none (truncf .bf16 (pickedRows v1 v10) bitsLt_bf16_f32)
          (oneHot v1) (constant S1024x1024 .f32 0x00000000#32))
        (matmul dot_S1024x1024_S1024x1024_S1024x1024_1_1_0_0_n_n none
          (truncf .bf16 (subf (pickedRows v1 v10) (pickedRows v1 v10)) bitsLt_bf16_f32)
          (oneHot v1) (constant S1024x1024 .f32 0x00000000#32)))))
    shapeCasts_S1024x1024_S1x1024x1024 (ix3 (0 : Fin 1) p q) = _
  rw [shapeCast_ab_1ab_apply]
  show shapeCast S1024x1024 v26 shapeCasts_S1x1024x1024_S1024x1024 (ix2 p q)
    + alpha * (matmul dot_S1024x1024_S1024x1024_S1024x1024_1_1_0_0_n_n none _ (oneHot v1) _ (ix2 p q)
      + matmul dot_S1024x1024_S1024x1024_S1024x1024_1_1_0_0_n_n none _ (oneHot v1) _ (ix2 p q)) = _
  rw [shapeCast_1ab_ab_apply, rowByRow_apply, rowByRow_apply, e1, e2, add_zero]

end Cert.KernelIdeal.Pay

end
-- ==== Proof.KIGatherValue.lean ====
/-
  What the gather region leaves in its output array, at the extended reals.
-/
import proofs.«412019_j65403761984193_3_alg».proof.Proof.KI.Gather
import proofs.«412019_j65403761984193_3_alg».proof.Proof.KIPayGather

set_option maxRecDepth 16384

noncomputable section

open scoped BigOperators

namespace Cert.KernelIdeal.GatherValue

open Cert.KernelIdeal Cert.KernelIdeal.Gen Cert.KernelIdeal.Hand Cert.KernelIdeal.Pay Cert.Spec
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The region's four arrays under their literal types: the arc scores, the tag table, the table of logistic values as
    the region finds them, and the output array after the region. -/
abbrev sArr (c : Dev nD) : S32x1024x1024.Idx → EReal := V c main_arg0
abbrev posArr (c : Dev nD) : S32x1024.Idx → BitVec 32 := V c main_arg3
abbrev tblArr (c : Dev nD) : S1024x1024.Idx → EReal := V c main_v11
abbrev outArr (c : Dev nD) : S32x1024x1024.Idx → EReal := (dat1 (F := Ideal) V c).arrAt 3 cfg1.N

/-! ## What one point's body leaves in the output block -/

theorem zeros3 : (![0, 0, 0] : Fin 3 → Nat) = fun _ => 0 := funext fun a => by fin_cases a <;> rfl
theorem zeros2 : (![0, 0] : Fin 2 → Nat) = fun _ => 0 := funext fun a => by fin_cases a <;> rfl

section Piece
variable {F : FTy → Type} [FloatOps F]

/-- The body's one store covers the output block, and its payload is the gather step of the point's row of the tag
    table, the whole table of logistic values and the point's block of arc scores. -/
theorem out1_eq (c : Dev nD) (i : grid1.Coords) (arg1 : Memref sig .tc .vmem S1x1024x1024 .f32) (harg1 : arg1.IsWhole)
    (arg2 : Memref sig .tc .vmem S32x1024 .i32) (harg2 : arg2.IsWhole) (arg3 : Memref sig .tc .vmem S1024x1024 .f32) (harg3 : arg3.IsWhole)
    (arg4 : Memref sig .tc .vmem S1x1024x1024 .f32) (harg4 : arg4.IsWhole)
    (x0 : Vec F S1x1024x1024 .f32) (x1 : Vec F S32x1024 .i32) (x2 : Vec F S1024x1024 .f32) :
    out1 c i arg1 harg1 arg2 harg2 arg3 harg3 arg4 harg4 x0 x1 x2
      = k1_pay1 (View.ld x1 (Rect.unit (s := S32x1024) (k1_off1 i) S1x1024.size (k1_off1_inb i))) x2 x0 := by
  unfold out1
  rw [View.read_writes_eq_canon _ _ _ (cover1 c i arg1 harg1 arg2 harg2 arg3 harg3 arg4 harg4 x0 x1 x2)]
  unfold kernelRun1
  dsimp only
  try sl_unfold_words
  rw [View.canon_unit_zero zeros3]
  simp only [View.readAt_eq_ld, harg1.read_unread, harg2.read_unread, harg3.read_unread,
    View.ld_unit_zero (S := S1x1024x1024) zeros3, View.ld_unit_zero (S := S1024x1024) zeros2]

end Piece

/-! ## The blocks a point reads, as entries of the arrays -/

/-- The index maps over the 32 points: point `t` loads row `t` of the tag table, reads sentence `t` of the arc scores
    and writes sentence `t` of the output; the two tables are whole. -/
theorem point_facts : ∀ t : Fin cfg1.N,
    k1_off1 (grid1.coords t) 0 = t.val ∧ k1_off1 (grid1.coords t) 1 = 0
    ∧ win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- The three input blocks at point `t` under their literal types. -/
abbrev sBlk (c : Dev nD) (t : Fin cfg1.N) : Vec Ideal S1x1024x1024 .f32 := iblk1 V c 0 t
abbrev posBlk (c : Dev nD) (t : Fin cfg1.N) : Vec Ideal S32x1024 .i32 := iblk1 V c 1 t
abbrev tblBlk (c : Dev nD) (t : Fin cfg1.N) : Vec Ideal S1024x1024 .f32 := iblk1 V c 2 t

/-- The row of tags point `t` loads from its block of the tag table. -/
abbrev posRow (c : Dev nD) (t : Fin cfg1.N) : Vec Ideal S1x1024 .i32 :=
  View.ld (posBlk V c t) (Rect.unit (s := S32x1024) (k1_off1 (grid1.coords t)) S1x1024.size (k1_off1_inb (grid1.coords t)))

/-- Point `t`'s block of arc scores is sentence `t`. -/
theorem sBlk_apply (c : Dev nD) (t : Fin cfg1.N) (b : Fin 32) (hb : b.val = t.val) (p q : Fin 1024) :
    sBlk V c t (ix3 (0 : Fin 1) p q) = sArr V c (ix3 b p q) := by
  obtain ⟨-, -, e0, e1, e2, -⟩ := point_facts t
  show V c main_arg0 (((cfg1.win 0).blk t).view.emb (ix3 (0 : Fin 1) p q)) = V c main_arg0 (ix3 b p q)
  refine congrArg _ (funext fun a => Fin.ext ?_)
  match a with
  | ⟨0, _⟩ => show win1_0.index t (0 : Fin 3) * 1 + 1 * 0 = b.val; omega
  | ⟨1, _⟩ => show win1_0.index t (1 : Fin 3) * 1024 + 1 * p.val = p.val; omega
  | ⟨2, _⟩ => show win1_0.index t (2 : Fin 3) * 1024 + 1 * q.val = q.val; omega

/-- The row point `t` loads is row `t` of the tag table. -/
theorem posRow_apply (c : Dev nD) (t : Fin cfg1.N) (b : Fin 32) (hb : b.val = t.val) (p : Fin 1024) :
    posRow V c t (ix2 (0 : Fin 1) p) = posArr V c (ix2 b p) := by
  obtain ⟨o0, o1, -, -, -, e0, e1, -⟩ := point_facts t
  show V c main_arg3 (((cfg1.win 1).blk t).view.emb
      ((Rect.unit (s := S32x1024) (k1_off1 (grid1.coords t)) S1x1024.size (k1_off1_inb (grid1.coords t))).idx (ix2 (0 : Fin 1) p)))
    = V c main_arg3 (ix2 b p)
  refine congrArg _ (funext fun a => Fin.ext ?_)
  match a with
  | ⟨0, _⟩ => show win1_1.index t (0 : Fin 2) * 32 + 1 * (k1_off1 (grid1.coords t) 0 + 1 * 0) = b.val; omega
  | ⟨1, _⟩ => show win1_1.index t (1 : Fin 2) * 1024 + 1 * (k1_off1 (grid1.coords t) 1 + 1 * p.val) = p.val; omega

/-- Every point's block of the table of logistic values is the whole table. -/
theorem tblBlk_apply (c : Dev nD) (t : Fin cfg1.N) (i j : Fin 1024) :
    tblBlk V c t (ix2 i j) = tblArr V c (ix2 i j) := by
  obtain ⟨-, -, -, -, -, -, -, e0, e1, -⟩ := point_facts t
  show V c main_v11 (((cfg1.win 2).blk t).view.emb (ix2 i j)) = V c main_v11 (ix2 i j)
  refine congrArg _ (funext fun a => Fin.ext ?_)
  match a with
  | ⟨0, _⟩ => show win1_2.index t (0 : Fin 2) * 1024 + 1 * i.val = i.val; omega
  | ⟨1, _⟩ => show win1_2.index t (1 : Fin 2) * 1024 + 1 * j.val = j.val; omega

/-! ## One point's output block, entry by entry -/

/-- THE RESULT as one function of the whole index. -/
abbrev gathered (c : Dev nD) : S32x1024x1024.Idx → EReal := fun y =>
  sArr V c y + alpha * tblArr V c (ix2 (tag (posArr V c (ix2 (y 0) (y 1)))) (tag (posArr V c (ix2 (y 0) (y 2)))))

/-- What point `t` leaves in the output block, under its literal type. -/
abbrev outBlk (c : Dev nD) (t : Fin cfg1.N) : Vec Ideal S1x1024x1024 .f32 := (dat1 (F := Ideal) V c).after 3 t

/-- Point `t` leaves sentence `t` of the result in the output block. -/
theorem outBlk_apply (c : Dev nD)
    (hfin : ∀ y, ∃ r : ℝ, tblArr V c y = (r : EReal))
    (hrange : ∀ y, (posArr V c y).toNat < 1024)
    (t : Fin cfg1.N) (b : Fin 32) (hb : b.val = t.val) (p q : Fin 1024) :
    outBlk V c t (ix3 (0 : Fin 1) p q) = gathered V c (ix3 b p q) := by
  show ((dat1 (F := Ideal) V c).after 3 t : Vec Ideal S1x1024x1024 .f32) (ix3 (0 : Fin 1) p q) = _
  rw [after1_3]
  refine (congrFun (out1_eq (F := Ideal) c (grid1.coords t) (ms1_0 t) (hs1_0 t) (ms1_1 t) (hs1_1 t) (ms1_2 t) (hs1_2 t)
    (ms1_3 t) (hs1_3 t) (sBlk V c t) (posBlk V c t) (tblBlk V c t)) (ix3 (0 : Fin 1) p q)).trans ?_
  refine (gather_pay_apply (posRow V c t) (tblBlk V c t) (sBlk V c t) ?_ ?_ p q).trans ?_
  · intro y
    obtain ⟨i, j, rfl⟩ : ∃ (i j : Fin 1024), y = ix2 i j := ⟨y 0, y 1, eq_ix2 y⟩
    rw [tblBlk_apply V c t i j]
    exact hfin _
  · intro p'
    rw [posRow_apply V c t b hb p']
    exact hrange _
  rw [sBlk_apply V c t b hb p q, posRow_apply V c t b hb p, posRow_apply V c t b hb q, tblBlk_apply V c t]

/-! ## From the blocks to the array -/

/-- Two contents of a rank-3 shape agree when they agree at every triple of coordinates. -/
theorem ext_ix3 {α : Type} {n0 n1 n2 : Nat} (f g : (⟨3, ![n0, n1, n2]⟩ : Shape).Idx → α)
    (h : ∀ a b c, f (ix3 a b c) = g (ix3 a b c)) : f = g :=
  funext fun j => by rw [eq_ix3 j]; exact h _ _ _

/-- WHAT POINT `t` WRITES BACK is block `t` of the result. -/
theorem flushed_eq (c : Dev nD)
    (hfin : ∀ y, ∃ r : ℝ, tblArr V c y = (r : EReal))
    (hrange : ∀ y, (posArr V c y).toNat < 1024) (t : Fin cfg1.N) :
    (dat1 (F := Ideal) V c).flushed 3 t = ((cfg1.win 3).blk t).view.read (Elt Ideal) (gathered V c) := by
  have ht : t.val < 32 := Nat.lt_of_lt_of_eq t.isLt N_1
  obtain ⟨-, -, -, -, -, -, -, -, -, e0, e1, e2⟩ := point_facts t
  show outBlk V c t = _
  refine ext_ix3 (n0 := 1) (n1 := 1024) (n2 := 1024) _ _ fun z p q => ?_
  obtain rfl : z = 0 := Subsingleton.elim _ _
  rw [outBlk_apply V c hfin hrange t ⟨t.val, ht⟩ rfl p q]
  show gathered V c (ix3 (⟨t.val, ht⟩ : Fin 32) p q) = gathered V c (((cfg1.win 3).blk t).view.emb (ix3 (0 : Fin 1) p q))
  refine congrArg _ (funext fun a => Fin.ext ?_)
  match a with
  | ⟨0, _⟩ => show t.val = win1_3.index t (0 : Fin 3) * 1 + 1 * 0; omega
  | ⟨1, _⟩ => show p.val = win1_3.index t (1 : Fin 3) * 1024 + 1 * p.val; omega
  | ⟨2, _⟩ => show q.val = win1_3.index t (2 : Fin 3) * 1024 + 1 * q.val; omega

/-- An index of the output array is in point `t`'s block iff each coordinate is in the block's range on its axis. -/
theorem mem_blk (t : Fin cfg1.N) (i : S32x1024x1024.Idx) :
    i ∈ ((cfg1.win 3).blk t).view.set
      ↔ ∀ a : Fin 3, win1_3.index t a * S1x1024x1024.size a ≤ (i a).val ∧ (i a).val < win1_3.index t a * S1x1024x1024.size a + S1x1024x1024.size a := by
  show i ∈ ((View.whole main_v12).slice (win1_3.rect t)).set ↔ _
  rw [View.set_slice_whole, Rect.mem_set_unit]
  exact Iff.rfl

/-- The 32 blocks tile the output array: sentence `b` is point `b`'s block. -/
theorem blocks_cover (i : S32x1024x1024.Idx) :
    ∃ t : Fin cfg1.N, (cfg1.win 3).flush t = true ∧ i ∈ ((cfg1.win 3).blk t).view.set := by
  have h0 : (i 0).val < 32 := (i 0).isLt
  have h1 : (i 1).val < 1024 := (i 1).isLt
  have h2 : (i 2).val < 1024 := (i 2).isLt
  refine ⟨⟨(i 0).val, Nat.lt_of_lt_of_eq h0 N_1.symm⟩, flush1_3 _, ?_⟩
  obtain ⟨-, -, -, -, -, -, -, -, -, e0, e1, e2⟩ := point_facts ⟨(i 0).val, Nat.lt_of_lt_of_eq h0 N_1.symm⟩
  rw [mem_blk]
  intro a
  match a with
  | ⟨0, _⟩ => show win1_3.index _ (0 : Fin 3) * 1 ≤ (i 0).val ∧ (i 0).val < win1_3.index _ (0 : Fin 3) * 1 + 1; rw [e0]; dsimp only; omega
  | ⟨1, _⟩ => show win1_3.index _ (1 : Fin 3) * 1024 ≤ (i 1).val ∧ (i 1).val < win1_3.index _ (1 : Fin 3) * 1024 + 1024; rw [e1]; omega
  | ⟨2, _⟩ => show win1_3.index _ (2 : Fin 3) * 1024 ≤ (i 2).val ∧ (i 2).val < win1_3.index _ (2 : Fin 3) * 1024 + 1024; rw [e2]; omega

/-- THE GATHER REGION'S RESULT: with a real table and every tag below 1024, entry `(b, p, q)` of the output array after
    the region is the arc score plus three tenths of the table's entry at the tags of `p` and `q`. -/
theorem gather_arr (c : Dev nD)
    (hfin : ∀ y, ∃ r : ℝ, tblArr V c y = (r : EReal))
    (hrange : ∀ y, (posArr V c y).toNat < 1024)
    (b : Fin 32) (p q : Fin 1024) :
    outArr V c (ix3 b p q)
      = sArr V c (ix3 b p q) + alpha * tblArr V c (ix2 (tag (posArr V c (ix2 b p))) (tag (posArr V c (ix2 b q)))) := by
  have h : (dat1 (F := Ideal) V c).arrAt 3 cfg1.N = gathered V c :=
    (dat1 (F := Ideal) V c).arrAt_eq_of_cover 3 (gathered V c) (fun t _ => flushed_eq V c hfin hrange t) blocks_cover
  exact congrFun h (ix3 b p q)

end Cert.KernelIdeal.GatherValue

end
-- ==== Proof.KIValue.lean ====
/-
  The idealized kernel's result is the specification, entry by entry.

  Region 0 leaves each half's partial histogram in its output array; the host stretch between the regions adds the two
  halves and applies the logistic function; region 1 reads that table at the tags of `pos`. Summing the sixteen
  sentences of each half and then the two halves is summing all 32 sentences.
-/
import proofs.«412019_j65403761984193_3_alg».proof.Proof.KI.Run
import proofs.«412019_j65403761984193_3_alg».proof.Proof.KIHistValue
import proofs.«412019_j65403761984193_3_alg».proof.Proof.KIGatherValue
import Idealize.ShloMosaic.Lib.Pipeline.Value
import Idealize.ShloMosaic.Lib.StableHlo.Predicate
import Idealize.ShloMosaic.Lib.StableHlo.Run

set_option maxRecDepth 16384

noncomputable section

open scoped BigOperators

namespace Cert.KernelIdeal.KValue

open Cert.KernelIdeal Cert.KernelIdeal.Gen Cert.KernelIdeal.Hand Cert.KernelIdeal.Pay Cert.Spec
open Cert.KernelIdeal.HistValue Cert.KernelIdeal.GatherValue
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The four argument arrays at launch, under their literal types. -/
abbrev sArg (c : Dev nD) : S32x1024x1024.Idx → EReal := m ((c : Thread nD τ).loc main_arg0)
abbrev aArg (c : Dev nD) : S32x1024x1024.Idx → EReal := m ((c : Thread nD τ).loc main_arg1)
abbrev addsArg (c : Dev nD) : S32x1024.Idx → BitVec 32 := m ((c : Thread nD τ).loc main_arg2)
abbrev posArg (c : Dev nD) : S32x1024.Idx → BitVec 32 := m ((c : Thread nD τ).loc main_arg3)
/-- The two halves' partial histograms as region 0 leaves them. -/
abbrev halves (c : Dev nD) : S2x1024x1024.Idx → EReal := (dat0 (F := Ideal) (V0 m ρ) c).arrAt 2 cfg0.N

/-! ## What region 1 is entered with -/

theorem V2_arg0 (c : Dev nD) : sArr (V2 m ρ) c = sArg m c :=
  (W2_of m ρ c main_arg0 (by decide)).trans ((W1_of_ne m ρ c main_arg0 (by decide)).trans rfl)
theorem V2_arg3 (c : Dev nD) : posArr (V2 m ρ) c = posArg m c :=
  (W2_of m ρ c main_arg3 (by decide)).trans ((W1_of_ne m ρ c main_arg3 (by decide)).trans rfl)

/-- The host stretch's last value as one term of region 0's output array. -/
theorem tbl_term (c : Dev nD) :
    tblArr (V2 m ρ) c
      = Host.divf (F := Ideal) (broadcastInDim S1024x1024 ![] bcast_S_S1024x1024 (constant (F := Ideal) S_ .f32 0x3F800000#32))
          (addf (broadcastInDim S1024x1024 ![] bcast_S_S1024x1024 (constant (F := Ideal) S_ .f32 0x3F800000#32))
            (Host.exp (Host.negf (addf
              (shapeCast S1024x1024 (extractStridedSlice S1x1024x1024 ![0, 0, 0] (halves m ρ c) slices_S2x1024x1024_S1x1024x1024_0_0_0) shapeCasts_S1x1024x1024_S1024x1024)
              (shapeCast S1024x1024 (extractStridedSlice S1x1024x1024 ![1, 0, 0] (halves m ρ c) slices_S2x1024x1024_S1x1024x1024_1_0_0) shapeCasts_S1x1024x1024_S1024x1024))))) := by
  have h0 : halves m ρ c = W1 m ρ c (Proc.devRef .tc main_v0) := (W1_arr m ρ c 2).symm
  rw [h0]
  show StableHlo.after hostOps1 (W1 m ρ c) (Proc.devRef .tc main_v11) = _
  after_results
  rfl

/-- A block `[1, 1024, 1024]` read as a matrix. -/
theorem cast_apply (X : S1x1024x1024.Idx → EReal) (i j : Fin 1024) :
    shapeCast S1024x1024 X shapeCasts_S1x1024x1024_S1024x1024 (ix2 i j) = X (ix3 (0 : Fin 1) i j) :=
  shapeCast_apply X _ (ix2 i j) (ix3 (0 : Fin 1) i j) (by
    rw [Shape.rowMajor_val_three, Shape.rowMajor_val_two]
    show ((0 : ℕ) * 1024 + i.val) * 1024 + j.val = i.val * 1024 + j.val
    omega)

theorem slice0_apply (X : S2x1024x1024.Idx → EReal) (i j : Fin 1024) :
    extractStridedSlice S1x1024x1024 ![0, 0, 0] X slices_S2x1024x1024_S1x1024x1024_0_0_0 (ix3 (0 : Fin 1) i j) = X (ix3 (0 : Fin 2) i j) :=
  extractStridedSlice_apply _ X _ (ix3 (0 : Fin 1) i j) (ix3 (0 : Fin 2) i j) (fun a => by
    match a with
    | ⟨0, _⟩ => rfl
    | ⟨1, _⟩ => exact (Nat.zero_add _).symm
    | ⟨2, _⟩ => exact (Nat.zero_add _).symm)

theorem slice1_apply (X : S2x1024x1024.Idx → EReal) (i j : Fin 1024) :
    extractStridedSlice S1x1024x1024 ![1, 0, 0] X slices_S2x1024x1024_S1x1024x1024_1_0_0 (ix3 (0 : Fin 1) i j) = X (ix3 (1 : Fin 2) i j) :=
  extractStridedSlice_apply _ X _ (ix3 (0 : Fin 1) i j) (ix3 (1 : Fin 2) i j) (fun a => by
    match a with
    | ⟨0, _⟩ => rfl
    | ⟨1, _⟩ => exact (Nat.zero_add _).symm
    | ⟨2, _⟩ => exact (Nat.zero_add _).symm)

/-- The table region 1 reads, at bin `(i, j)`: the logistic of the two halves' sum. -/
theorem tbl_apply (c : Dev nD) (i j : Fin 1024) :
    tblArr (V2 m ρ) c (ix2 i j) = sigm (halves m ρ c (ix3 (0 : Fin 2) i j) + halves m ρ c (ix3 (1 : Fin 2) i j)) := by
  rw [tbl_term]
  have hb : ∀ y : S1024x1024.Idx, broadcastInDim S1024x1024 ![] bcast_S_S1024x1024 (constant (F := Ideal) S_ .f32 0x3F800000#32) y = one := fun y => by
    rw [StableHlo.Predicate.bcast_scalar _ (by decide)]
    rfl
  show Ideal.div (broadcastInDim S1024x1024 ![] bcast_S_S1024x1024 (constant (F := Ideal) S_ .f32 0x3F800000#32) (ix2 i j))
      (broadcastInDim S1024x1024 ![] bcast_S_S1024x1024 (constant (F := Ideal) S_ .f32 0x3F800000#32) (ix2 i j)
        + Ideal.exp (-(shapeCast S1024x1024 (extractStridedSlice S1x1024x1024 ![0, 0, 0] (halves m ρ c) slices_S2x1024x1024_S1x1024x1024_0_0_0) shapeCasts_S1x1024x1024_S1024x1024 (ix2 i j)
          + shapeCast S1024x1024 (extractStridedSlice S1x1024x1024 ![1, 0, 0] (halves m ρ c) slices_S2x1024x1024_S1x1024x1024_1_0_0) shapeCasts_S1x1024x1024_S1024x1024 (ix2 i j)))) = _
  rw [hb, cast_apply, cast_apply, slice0_apply, slice1_apply]
  rfl

/-! ## The two halves make the histogram -/

/-- Sixteen sentences and sixteen more are all 32. -/
theorem halves_sum (f : Fin 32 → EReal) :
    (∑ b : Fin 16, f ⟨16 * (0 : Fin 2).val + b.val, by have := b.isLt; omega⟩) + (∑ b : Fin 16, f ⟨16 * (1 : Fin 2).val + b.val, by have := b.isLt; omega⟩)
      = ∑ b : Fin 32, f b := by
  rw [show (∑ b : Fin 32, f b) = ∑ b : Fin (16 + 16), f b from rfl, Fin.sum_univ_add]
  congr 1 <;> exact Finset.sum_congr rfl fun b _ => congrArg f (Fin.ext (by simp))

/-- A sentence's contribution to a bin is real when the arc scores are. -/
theorem contrib_real (a : SArc.Idx → EReal) (adds : STag.Idx → BitVec 32) (ha : ∀ y, ∃ r : ℝ, a y = (r : EReal))
    (b : Fin 32) (i j : Fin 1024) : ∃ r : ℝ, contrib a adds b i j = (r : EReal) := by
  choose ra hra using ha
  refine ⟨∑ p : Fin 1024, ∑ q : Fin 1024, if (adds (ix2 b p)).toNat = i.val ∧ (adds (ix2 b q)).toNat = j.val then ra (ix3 b p q) else 0, ?_⟩
  unfold contrib
  have hsum : ∀ (ι : Type) (s : Finset ι) (g : ι → ℝ), (∑ x ∈ s, ((g x : ℝ) : EReal)) = ((∑ x ∈ s, g x : ℝ) : EReal) := by
    intro ι s g
    classical
    induction s using Finset.induction_on with
    | empty => simp
    | insert x s hx ih => rw [Finset.sum_insert hx, Finset.sum_insert hx, ih, EReal.coe_add]
  rw [← hsum]
  refine Finset.sum_congr rfl fun p _ => ?_
  rw [← hsum]
  refine Finset.sum_congr rfl fun q _ => ?_
  split_ifs
  · exact hra _
  · rfl

/-- A finite sum of reals is a real. -/
theorem sum_real {ι : Type} (s : Finset ι) (g : ι → EReal) (hg : ∀ x, ∃ r : ℝ, g x = (r : EReal)) : ∃ r : ℝ, (∑ x ∈ s, g x) = (r : EReal) := by
  classical
  choose rg hrg using hg
  refine ⟨∑ x ∈ s, rg x, ?_⟩
  induction s using Finset.induction_on with
  | empty => simp
  | insert x s hx ih => rw [Finset.sum_insert hx, Finset.sum_insert hx, ih, hrg, EReal.coe_add]

/-! ## The result -/

/-- THE KERNEL IS THE SPECIFICATION: with real arc scores `a` and every tag of both tables below 1024, the result buffer
    after the run holds the specification's function of the four argument arrays. -/
theorem kernel_out (c : Dev nD)
    (ha : ∀ y, ∃ r : ℝ, aArg m c y = (r : EReal))
    (hpos : ∀ y, (posArg m c y).toNat < 1024) :
    outArr (V2 m ρ) c = out (sArg m c) (aArg m c) (addsArg m c) (posArg m c) := by
  have hhalf : ∀ (h : Fin 2) (i j : Fin 1024), halves m ρ c (ix3 h i j)
      = ∑ b : Fin 16, contrib (aArg m c) (addsArg m c) ⟨16 * h.val + b.val, by have := h.isLt; have := b.isLt; omega⟩ i j :=
    fun h i j => hist_arr (V0 m ρ) c ha h i j
  have hbins : ∀ i j : Fin 1024, halves m ρ c (ix3 (0 : Fin 2) i j) + halves m ρ c (ix3 (1 : Fin 2) i j) = hist (aArg m c) (addsArg m c) i j := by
    intro i j
    rw [hhalf 0 i j, hhalf 1 i j]
    exact halves_sum (fun b => contrib (aArg m c) (addsArg m c) b i j)
  have htbl : ∀ i j : Fin 1024, tblArr (V2 m ρ) c (ix2 i j) = sigm (hist (aArg m c) (addsArg m c) i j) := fun i j => by
    rw [tbl_apply, hbins]
  have hfin : ∀ y, ∃ r : ℝ, tblArr (V2 m ρ) c y = (r : EReal) := fun y => by
    obtain ⟨i, j, rfl⟩ : ∃ i j, y = ix2 i j := ⟨y 0, y 1, eq_ix2 y⟩
    rw [htbl]
    obtain ⟨r, hr⟩ := sum_real Finset.univ (fun b => contrib (aArg m c) (addsArg m c) b i j) (fun b => contrib_real _ _ ha b i j)
    unfold hist
    rw [hr]
    exact sigm_real r
  have hrange : ∀ y, (posArr (V2 m ρ) c y).toNat < 1024 := fun y => by rw [V2_arg3]; exact hpos y
  funext y
  obtain ⟨b, p, q, rfl⟩ : ∃ b p q, y = ix3 b p q := ⟨y 0, y 1, y 2, eq_ix3 y⟩
  rw [gather_arr (V2 m ρ) c hfin hrange b p q, htbl, V2_arg0, V2_arg3]
  rfl

end Cert.KernelIdeal.KValue

end
-- ==== Proof.RefGen.lean ====
/-
  The reference's run and its stages read one operation at a time, gathered under one name for the modules
  that speak about the reference's value.
-/
import proofs.«412019_j65403761984193_3_alg».proof.Proof.Gen.ReferenceIdeal.Run
import proofs.«412019_j65403761984193_3_alg».proof.Proof.Gen.ReferenceIdeal.Read
-- ==== Proof.LibScatterRows.lean ====
/-
  The host's accumulating scatter and its row gather, read at one index, over the extended reals.

  An accumulating scatter adds to each element of its operand the sum of the update elements that land on it. An update
  element lands on the element whose coordinate, on every axis, is the update's start (an entry of the index array read
  as a SIGNED integer, and not clamped) plus its window coordinate; when that point is outside the operand on some axis
  the update is dropped. `resultIdx?_eq_some_iff` says this for any dimension numbers: landing on `i` is the system of
  equations "start + window = coordinate of `i`", one per axis, the range conditions being `i`'s own.

  Two shapes of dimension numbers are then solved, for sizes that are variables.
  * POINTS: updates `[N]`, index pairs `[N, 2]`, operand `[A, B]`. Update `j` lands on `(p, q)` iff its pair is
    `(p, q)`, so element `(p, q)` of the result is `x (p, q) + ∑ {j | pair j = (p, q)} upd j`
    (`scatterAdd_point_apply`).
  * ROWS: updates `[N, C]`, row indices `[N, 1]`, operand `[A, C]`. Element `(j, b')` of the updates lands on
    `(p, b)` iff row `j`'s index is `p` and `b' = b`, so element `(p, b)` of the result is
    `x (p, b) + ∑ {j | index j = p} upd (j, b)` (`scatterAdd_rows_apply`): the sum over update elements collapses
    onto column `b`.
  Last, the gather that takes rows of a table `[A, C]` at indices `[N, 1]`: element `(j, b)` of the result is the table
  at row `min (index j)⁺ (A − 1)` and column `b`, the index read signed and clamped into the table (`gather_rows_apply`).
-/
import Idealize.ShloMosaic.PureOps.Ideal
import Idealize.ShloMosaic.Lib.ValueIdx

noncomputable section

open scoped BigOperators

namespace Cert.ScatterRows

open Idealize.ShloMosaic Idealize.ShloMosaic.ValueIdx

/-- An update lands on element `i` exactly when, on every axis, its signed start plus its window coordinate
    is `i`'s coordinate: the range conditions are then `i`'s own. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hr
      have hi := congrFun (Option.some.inj h) a
      have hv := congrArg Fin.val hi
      simp only at hv
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    have := h a
    simp only
    omega

/-! ## One scalar update per index pair -/

/-- one scalar update per index pair: updates [N], indices [N,2] (index vector on axis 1), operand [A,B] -/
abbrev pointDims (A B N : Nat) (wf : ScatterDims.WF ⟨2, ![A, B]⟩ ⟨2, ![N, 2]⟩ ⟨1, ![N]⟩ [] [0, 1] [0, 1] 1) :
    ScatterDims ⟨2, ![A, B]⟩ ⟨2, ![N, 2]⟩ ⟨1, ![N]⟩ := ⟨[], [0, 1], [0, 1], 1, wf⟩

section Point
variable {A B N w : Nat} (wf : ScatterDims.WF ⟨2, ![A, B]⟩ ⟨2, ![N, 2]⟩ ⟨1, ![N]⟩ [] [0, 1] [0, 1] 1)

/-- Update `j` reads component `k` of its index pair at position `(j, k)` of the index array. -/
theorem point_siIdx (j : Fin N) (c : Fin (pointDims A B N wf).scatterDimsToOperandDims.length) (k : Fin 2)
    (hc : c.val = k.val) : (pointDims A B N wf).siIdx (ix1 j) c = ix2 j k := by
  funext b; refine Fin.ext ?_
  match b with
  | ⟨0, _⟩ => rfl
  | ⟨1, _⟩ => exact hc

/-- On the operand's first axis the start is the pair's first component, read signed. -/
theorem point_start0 (idx : IVec ⟨2, ![N, 2]⟩ w) (j : Fin N) :
    (pointDims A B N wf).start (ix1 j) idx (0 : Fin 2) = (idx (ix2 j (0 : Fin 2))).toInt := by
  unfold ScatterDims.start
  rw [dif_pos (show (0 : Fin 2) ∈ (pointDims A B N wf).scatterDimsToOperandDims from List.mem_cons_self)]
  rw [point_siIdx wf j _ (0 : Fin 2)]
  rfl

/-- On the operand's second axis the start is the pair's second component, read signed. -/
theorem point_start1 (idx : IVec ⟨2, ![N, 2]⟩ w) (j : Fin N) :
    (pointDims A B N wf).start (ix1 j) idx (1 : Fin 2) = (idx (ix2 j (1 : Fin 2))).toInt := by
  unfold ScatterDims.start
  rw [dif_pos (show (1 : Fin 2) ∈ (pointDims A B N wf).scatterDimsToOperandDims from List.mem_cons_of_mem _ List.mem_cons_self)]
  rw [point_siIdx wf j _ (1 : Fin 2)]
  rfl

/-- Both operand axes are inserted: a scalar update has no window coordinate. -/
theorem point_window (j : (⟨1, ![N]⟩ : Shape).Idx) (a : Fin 2) : (pointDims A B N wf).window j a = 0 := by
  unfold ScatterDims.window
  rw [dif_neg (show a ∉ (pointDims A B N wf).sKept from by
    have : (pointDims A B N wf).sKept = [] := rfl
    rw [this]; exact List.not_mem_nil)]

/-- Update `j` lands on `(p, q)` exactly when its index pair, read signed, is `(p, q)`. -/
theorem point_resultIdx?_iff (idx : IVec ⟨2, ![N, 2]⟩ w) (j : Fin N) (p : Fin A) (q : Fin B) :
    (pointDims A B N wf).resultIdx? (ix1 j) idx = some (ix2 p q)
      ↔ (idx (ix2 j (0 : Fin 2))).toInt = (p.val : Int) ∧ (idx (ix2 j (1 : Fin 2))).toInt = (q.val : Int) := by
  rw [resultIdx?_eq_some_iff, Fin.forall_fin_two, point_start0, point_start1, point_window, point_window]
  simp only [Nat.cast_zero, add_zero]

end Point

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE POINT SCATTER READ AT `(p, q)`: the operand's element plus the sum of the updates whose index pair, read
    signed, is `(p, q)`; an update whose pair is outside the operand is in no such sum. -/
theorem scatterAdd_point_apply {A B N w : Nat} {φ : FTy} (wf : ScatterDims.WF ⟨2, ![A, B]⟩ ⟨2, ![N, 2]⟩ ⟨1, ![N]⟩ [] [0, 1] [0, 1] 1)
    (x : FVec Ideal ⟨2, ![A, B]⟩ φ) (idx : IVec ⟨2, ![N, 2]⟩ w) (upd : FVec Ideal ⟨1, ![N]⟩ φ) (p : Fin A) (q : Fin B) :
    Host.scatterAdd (pointDims A B N wf) x idx upd (ix2 p q)
      = x (ix2 p q) + ∑ j ∈ Finset.univ.filter (fun j : Fin N => (idx (ix2 j (0 : Fin 2))).toInt = (p.val : Int) ∧ (idx (ix2 j (1 : Fin 2))).toInt = (q.val : Int)), upd (ix1 j) := by
  show Ideal.hostScatterAdd (pointDims A B N wf) x idx upd (ix2 p q) = _
  unfold Ideal.hostScatterAdd
  congr 1
  refine Finset.sum_equiv idxEquiv1 ?_ ?_
  · intro j'
    obtain ⟨j, rfl⟩ : ∃ j, j' = ix1 j := ⟨j' 0, eq_ix1 j'⟩
    simp only [Finset.mem_filter, Finset.mem_univ, true_and]
    exact point_resultIdx?_iff wf idx j p q
  · intro j' _
    exact congrArg upd (eq_ix1 j')

/-! ## One row update per index -/

/-- one row update per index: updates [N,C] (window axis 1), indices [N,1] (index vector on axis 1), operand [A,C], rows inserted on axis 0 -/
abbrev rowDims (A C N : Nat) (wf : ScatterDims.WF ⟨2, ![A, C]⟩ ⟨2, ![N, 1]⟩ ⟨2, ![N, C]⟩ [1] [0] [0] 1) :
    ScatterDims ⟨2, ![A, C]⟩ ⟨2, ![N, 1]⟩ ⟨2, ![N, C]⟩ := ⟨[1], [0], [0], 1, wf⟩

section Rows
variable {A C N w : Nat} (wf : ScatterDims.WF ⟨2, ![A, C]⟩ ⟨2, ![N, 1]⟩ ⟨2, ![N, C]⟩ [1] [0] [0] 1)

/-- Every element of update row `j` reads its one start component at position `(j, 0)` of the index array. -/
theorem rows_siIdx (j : Fin N) (b : Fin C) (c : Fin (rowDims A C N wf).scatterDimsToOperandDims.length) :
    (rowDims A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the start is the row index, read signed. -/
theorem rows_start0 (idx : IVec ⟨2, ![N, 1]⟩ w) (j : Fin N) (b : Fin C) :
    (rowDims A C N wf).start (ix2 j b) idx (0 : Fin 2) = (idx (ix2 j (0 : Fin 1))).toInt := by
  unfold ScatterDims.start
  rw [dif_pos (show (0 : Fin 2) ∈ (rowDims A C N wf).scatterDimsToOperandDims from List.mem_cons_self)]
  rw [rows_siIdx]

/-- The column axis is not indexed: its start is zero. -/
theorem rows_start1 (idx : IVec ⟨2, ![N, 1]⟩ w) (j : Fin N) (b : Fin C) :
    (rowDims A C N wf).start (ix2 j b) idx (1 : Fin 2) = 0 := by
  unfold ScatterDims.start
  rw [dif_neg (show (1 : Fin 2) ∉ (rowDims A C N wf).scatterDimsToOperandDims from by
    show (1 : Fin 2) ∉ ([0] : List (Fin 2))
    decide)]

/-- The row axis is inserted: no window coordinate there. -/
theorem rows_window0 (j : Fin N) (b : Fin C) : (rowDims A C N wf).window (ix2 j b) (0 : Fin 2) = 0 := by
  unfold ScatterDims.window
  rw [dif_neg (show (0 : Fin 2) ∉ (rowDims A C N wf).sKept from by
    show (0 : Fin 2) ∉ ([1] : List (Fin 2))
    decide)]

/-- On the column axis the window coordinate is the update's column. -/
theorem rows_window1 (j : Fin N) (b : Fin C) : (rowDims A C N wf).window (ix2 j b) (1 : Fin 2) = b.val := by
  unfold ScatterDims.window
  rw [dif_pos (show (1 : Fin 2) ∈ (rowDims A C N wf).sKept from by
    have : (rowDims A C N wf).sKept = [1] := rfl
    rw [this]; exact List.mem_cons_self)]
  rfl

/-- An update element lands on `(p, b)` exactly when its row's index, read signed, is `p` and its column is `b`. -/
theorem rows_resultIdx?_iff (idx : IVec ⟨2, ![N, 1]⟩ w) (j' : (⟨2, ![N, C]⟩ : Shape).Idx) (p : Fin A) (b : Fin C) :
    (rowDims A C N wf).resultIdx? j' idx = some (ix2 p b)
      ↔ (idx (ix2 (j' 0) (0 : Fin 1))).toInt = (p.val : Int) ∧ j' 1 = b := by
  obtain ⟨j, b', rfl⟩ : ∃ j b', j' = ix2 j b' := ⟨j' 0, j' 1, eq_ix2 j'⟩
  show _ ↔ (idx (ix2 j (0 : Fin 1))).toInt = (p.val : Int) ∧ b' = b
  rw [resultIdx?_eq_some_iff, Fin.forall_fin_two, rows_start0, rows_start1, rows_window0, rows_window1]
  simp only [Nat.cast_zero, add_zero, zero_add]
  constructor
  · rintro ⟨h0, h1⟩
    exact ⟨h0, Fin.ext (Int.ofNat_inj.mp h1)⟩
  · rintro ⟨h0, rfl⟩
    exact ⟨h0, rfl⟩

end Rows

/-- THE ROW SCATTER READ AT `(p, b)`: the operand's element plus the sum, over the update rows whose index read
    signed is `p`, of that row's element in column `b`; a row whose index is outside the operand is in no such sum. -/
theorem scatterAdd_rows_apply {A C N w : Nat} {φ : FTy} (wf : ScatterDims.WF ⟨2, ![A, C]⟩ ⟨2, ![N, 1]⟩ ⟨2, ![N, C]⟩ [1] [0] [0] 1)
    (x : FVec Ideal ⟨2, ![A, C]⟩ φ) (idx : IVec ⟨2, ![N, 1]⟩ w) (upd : FVec Ideal ⟨2, ![N, C]⟩ φ) (p : Fin A) (b : Fin C) :
    Host.scatterAdd (rowDims A C N wf) x idx upd (ix2 p b)
      = x (ix2 p b) + ∑ j ∈ Finset.univ.filter (fun j : Fin N => (idx (ix2 j (0 : Fin 1))).toInt = (p.val : Int)), upd (ix2 j b) := by
  show Ideal.hostScatterAdd (rowDims A C N wf) x idx upd (ix2 p b) = _
  unfold Ideal.hostScatterAdd
  congr 1
  have hcol : ∀ j' ∈ Finset.univ.filter (fun j' => (rowDims A C N wf).resultIdx? j' idx = some (ix2 p b)),
      ix2 (j' 0) b = j' := by
    intro j' hj'
    rw [Finset.mem_filter] at hj'
    have h := ((rows_resultIdx?_iff wf idx j' p b).mp hj'.2).2
    rw [← h]
    exact (eq_ix2 j').symm
  refine Finset.sum_nbij' (fun j' => j' 0) (fun j => ix2 j b) ?_ ?_ ?_ ?_ ?_
  · intro j' hj'
    rw [Finset.mem_filter] at hj'
    exact Finset.mem_filter.mpr ⟨Finset.mem_univ _, ((rows_resultIdx?_iff wf idx j' p b).mp hj'.2).1⟩
  · intro j hj
    rw [Finset.mem_filter] at hj
    exact Finset.mem_filter.mpr ⟨Finset.mem_univ _, (rows_resultIdx?_iff wf idx (ix2 j b) p b).mpr ⟨hj.2, rfl⟩⟩
  · exact hcol
  · intro j _
    rfl
  · intro j' hj'
    exact congrArg upd (hcol j' hj').symm

/-! ## Taking rows of a table -/

/-- take rows of a table [A,C] at indices [N,1]: result [N,C]; offset_dims [1], collapsed [0], start_index_map [0], index vector on axis 1, slice sizes [1, C] -/
abbrev rowGather (A C N : Nat) (wf : GatherDims.WF ⟨2, ![A, C]⟩ ⟨2, ![N, 1]⟩ ⟨2, ![N, C]⟩ [1] [0] [] [0] [] 1 ![1, C]) :
    GatherDims ⟨2, ![A, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

section Gather
variable {A C N w : Nat} (wf : GatherDims.WF ⟨2, ![A, C]⟩ ⟨2, ![N, 1]⟩ ⟨2, ![N, C]⟩ [1] [0] [] [0] [] 1 ![1, C])

/-- Every element of result row `j` reads its one start component at position `(j, 0)` of the index array. -/
theorem gather_siIdx (j : Fin N) (b : Fin C) (c : Fin (rowGather A C N wf).startIndexMap.length) :
    (rowGather A C N wf).siIdx (ix2 j b) c = ix2 j (0 : Fin 1) := by
  funext k; refine Fin.ext ?_
  match k with
  | ⟨0, _⟩ => rfl
  | ⟨1, _⟩ =>
    show c.val = 0
    have : c.val < 1 := c.isLt
    omega

/-- On the row axis the operand coordinate is the row index, read signed and clamped into `[0, A − 1]`. -/
theorem gather_coord0 (idx : IVec ⟨2, ![N, 1]⟩ w) (j : Fin N) (b : Fin C) :
    (rowGather A C N wf).start (ix2 j b) idx (0 : Fin 2) + (rowGather A C N wf).batchCoord (ix2 j b) (0 : Fin 2)
        + (rowGather A C N wf).offCoord (ix2 j b) (0 : Fin 2)
      = min (idx (ix2 j (0 : Fin 1))).toInt.toNat (A - 1) := by
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGather A C N wf).startIndexMap from List.mem_cons_self)]
  rw [gather_siIdx]
  rfl

/-- On the column axis the operand coordinate is the result's column. -/
theorem gather_coord1 (idx : IVec ⟨2, ![N, 1]⟩ w) (j : Fin N) (b : Fin C) :
    (rowGather A C N wf).start (ix2 j b) idx (1 : Fin 2) + (rowGather A C N wf).batchCoord (ix2 j b) (1 : Fin 2)
        + (rowGather A C N wf).offCoord (ix2 j b) (1 : Fin 2)
      = b.val := by
  have hs : (rowGather A C N wf).start (ix2 j b) idx (1 : Fin 2) = 0 := by
    unfold GatherDims.start
    rw [dif_neg (show (1 : Fin 2) ∉ (rowGather A C N wf).startIndexMap from by
      show (1 : Fin 2) ∉ ([0] : List (Fin 2))
      decide)]
  rw [hs, GatherDims.batchCoord_eq_zero _ _ _ List.not_mem_nil]
  simp only [Nat.add_zero, Nat.zero_add]
  unfold GatherDims.offCoord
  rw [dif_pos (show (1 : Fin 2) ∈ (rowGather A C N wf).sKept from by
    rw [GatherDims.mem_sKept]
    exact ⟨by show (1 : Fin 2) ∉ ([0] : List (Fin 2)); decide, List.not_mem_nil⟩)]
  rfl

end Gather

/-- THE ROW GATHER READ AT `(j, b)`: the table's element in column `b` of the row whose number is index `j`, read
    signed and clamped into `[0, A − 1]`. -/
theorem gather_rows_apply {α : Type} {A C N w : Nat} (hA : 0 < A) (wf : GatherDims.WF ⟨2, ![A, C]⟩ ⟨2, ![N, 1]⟩ ⟨2, ![N, C]⟩ [1] [0] [] [0] [] 1 ![1, C])
    (x : (⟨2, ![A, C]⟩ : Shape).Idx → α) (idx : IVec ⟨2, ![N, 1]⟩ w) (j : Fin N) (b : Fin C) :
    Host.gather (rowGather A C N wf) x idx (ix2 j b)
      = x (ix2 ⟨min (idx (ix2 j (0 : Fin 1))).toInt.toNat (A - 1), by omega⟩ b) := by
  unfold Host.gather
  congr 1
  funext a
  refine Fin.ext ?_
  match a with
  | ⟨0, _⟩ => exact gather_coord0 wf idx j b
  | ⟨1, _⟩ => exact gather_coord1 wf idx j b

end Cert.ScatterRows

end
-- ==== Proof.RefHist.lean ====
/-
  The reference's histogram stage read at one bin.

  The reference flattens the scores `a[b, p, q]` to one axis of length 32 · 1024 · 1024, computes for each flat
  position the pair word `adds[b, p] · 1024 + adds[b, q]` in 32-bit arithmetic, and adds every score into the bin of
  a zero array of length 1024 · 1024 that its pair word names. Read at bin `k` this is the sum of the scores whose
  pair word, read signed, is `k`. When every tag is below 1024 the pair word is below 2²⁰, there is no wrap-around,
  its signed reading is its value, and the word is `k` exactly when the two tags are `k / 1024` and `k % 1024`.
  Splitting the flat position into `(b, p, q)` then gives the pair histogram.
-/
import proofs.«412019_j65403761984193_3_alg».proof.Proof.RefGen
import proofs.«412019_j65403761984193_3_alg».proof.Proof.Spec
import proofs.«412019_j65403761984193_3_alg».proof.Proof.LibScatterRows
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.ReferenceIdeal.RefValue

open Cert.ReferenceIdeal Cert.ReferenceIdeal.Read Cert.Spec
open Idealize.ShloMosaic Idealize.ShloMosaic.ValueIdx

/-! ## One scalar update per index, into a rank-1 operand -/

/-- one scalar update per index: updates [N], indices [N,1] (index vector on axis 1), operand [A], its one axis inserted -/
abbrev binDims (A N : Nat) (wf : ScatterDims.WF ⟨1, ![A]⟩ ⟨2, ![N, 1]⟩ ⟨1, ![N]⟩ [] [0] [0] 1) :
    ScatterDims ⟨1, ![A]⟩ ⟨2, ![N, 1]⟩ ⟨1, ![N]⟩ := ⟨[], [0], [0], 1, wf⟩

section Bins
variable {A N w : Nat} (wf : ScatterDims.WF ⟨1, ![A]⟩ ⟨2, ![N, 1]⟩ ⟨1, ![N]⟩ [] [0] [0] 1)

/-- Update `j` reads its one start component at position `(j, 0)` of the index array. -/
theorem bin_siIdx (j : Fin N) (c : Fin (binDims A N wf).scatterDimsToOperandDims.length) :
    (binDims A N wf).siIdx (ix1 j) c = ix2 j (0 : Fin 1) := by
  funext b; refine Fin.ext ?_
  match b with
  | ⟨0, _⟩ => rfl
  | ⟨1, _⟩ =>
    show c.val = 0
    have : c.val < 1 := c.isLt
    omega

/-- On the operand's one axis the start is the index, read signed. -/
theorem bin_start (idx : IVec ⟨2, ![N, 1]⟩ w) (j : Fin N) :
    (binDims A N wf).start (ix1 j) idx (0 : Fin 1) = (idx (ix2 j (0 : Fin 1))).toInt := by
  unfold ScatterDims.start
  rw [dif_pos (show (0 : Fin 1) ∈ (binDims A N wf).scatterDimsToOperandDims from List.mem_cons_self)]
  rw [bin_siIdx]

/-- The operand's axis is inserted: a scalar update has no window coordinate. -/
theorem bin_window (j : (⟨1, ![N]⟩ : Shape).Idx) (a : Fin 1) : (binDims A N wf).window j a = 0 := by
  unfold ScatterDims.window
  rw [dif_neg (show a ∉ (binDims A N wf).sKept from by
    have : (binDims A N wf).sKept = [] := rfl
    rw [this]; exact List.not_mem_nil)]

/-- Update `j` lands on bin `k` exactly when its index, read signed, is `k`. -/
theorem bin_resultIdx?_iff (idx : IVec ⟨2, ![N, 1]⟩ w) (j : Fin N) (k : Fin A) :
    (binDims A N wf).resultIdx? (ix1 j) idx = some (ix1 k)
      ↔ (idx (ix2 j (0 : Fin 1))).toInt = (k.val : Int) := by
  rw [Cert.ScatterRows.resultIdx?_eq_some_iff, Fin.forall_fin_one, bin_start, bin_window]
  simp only [Nat.cast_zero, add_zero]

end Bins

/-- THE BIN SCATTER READ AT `k`: the operand's element plus the sum of the updates whose index, read signed, is
    `k`; an update whose index is outside the operand is in no such sum. -/
theorem scatterAdd_bins_apply {A N w : Nat} {φ : FTy} (wf : ScatterDims.WF ⟨1, ![A]⟩ ⟨2, ![N, 1]⟩ ⟨1, ![N]⟩ [] [0] [0] 1)
    (x : FVec Ideal ⟨1, ![A]⟩ φ) (idx : IVec ⟨2, ![N, 1]⟩ w) (upd : FVec Ideal ⟨1, ![N]⟩ φ) (k : Fin A) :
    Host.scatterAdd (binDims A N wf) x idx upd (ix1 k)
      = x (ix1 k) + ∑ j ∈ Finset.univ.filter (fun j : Fin N => (idx (ix2 j (0 : Fin 1))).toInt = (k.val : Int)), upd (ix1 j) := by
  show Ideal.hostScatterAdd (binDims A N wf) x idx upd (ix1 k) = _
  unfold Ideal.hostScatterAdd
  congr 1
  refine Finset.sum_equiv Cert.ScatterRows.idxEquiv1 ?_ ?_
  · intro j'
    obtain ⟨j, rfl⟩ : ∃ j, j' = ix1 j := ⟨j' 0, eq_ix1 j'⟩
    simp only [Finset.mem_filter, Finset.mem_univ, true_and]
    exact bin_resultIdx?_iff wf idx j k
  · intro j' _
    exact congrArg upd (eq_ix1 j')

/-! ## The pair word -/

/-- The flat position `j = (b · 1024 + p) · 1024 + q` split into sentence `b`, first token `p`, second token `q`. -/
abbrev jb (j : Fin 33554432) : Fin 32 := ⟨j.val / 1048576, by have := j.isLt; omega⟩
abbrev jp (j : Fin 33554432) : Fin 1024 := ⟨j.val / 1024 % 1024, Nat.mod_lt _ (by norm_num)⟩
abbrev jq (j : Fin 33554432) : Fin 1024 := ⟨j.val % 1024, Nat.mod_lt _ (by norm_num)⟩

/-- The index array at flat position `j` holds `adds[b, p] · 1024 + adds[b, q]`, in 32-bit arithmetic. -/
theorem pair_word (x2 : (⟨S32x1024, .i32⟩ : BufTy).Contents (Elt Ideal)) (j : Fin 33554432) :
    val_main_v10 (F := Ideal) x2 (ix2 j (0 : Fin 1))
      = x2 (ix2 (jb j) (jp j)) * 1024#32 + x2 (ix2 (jb j) (jq j)) := by
  rw [val_main_v10_apply, val_main_v8_apply, val_main_v6_apply, val_main_v4_apply, val_main_v5_apply,
    val_main_v2_apply, val_main_v3_apply, val_main_v0_apply, val_main_v1_apply, val_main_c_apply]
  have h0 : idx_main_v0 (idx_main_v4 (idx_main_v8 (idx_main_v10 (ix2 j (0 : Fin 1))))) = ix2 (jb j) (jp j) := by
    funext a
    match a with
    | ⟨0, _⟩ => rfl
    | ⟨1, _⟩ => rfl
  have h3 : idx_main_v3 (idx_main_v5 (idx_main_v8 (idx_main_v10 (ix2 j (0 : Fin 1))))) = ix2 (jb j) (jq j) := by
    funext a
    match a with
    | ⟨0, _⟩ => rfl
    | ⟨1, _⟩ => rfl
  rw [h0, h3]
  rfl

/-- When both tags are below 1024 the pair word does not wrap around: read signed it is `tag_p · 1024 + tag_q`. -/
theorem pair_word_toInt (x2 : (⟨S32x1024, .i32⟩ : BufTy).Contents (Elt Ideal)) (hadds : ∀ y, (x2 y).toNat < 1024)
    (j : Fin 33554432) :
    (val_main_v10 (F := Ideal) x2 (ix2 j (0 : Fin 1))).toInt
      = (((x2 (ix2 (jb j) (jp j))).toNat * 1024 + (x2 (ix2 (jb j) (jq j))).toNat : Nat) : Int) := by
  rw [pair_word]
  have hp := hadds (ix2 (jb j) (jp j))
  have hq := hadds (ix2 (jb j) (jq j))
  generalize x2 (ix2 (jb j) (jp j)) = a at hp ⊢
  generalize x2 (ix2 (jb j) (jq j)) = b at hq ⊢
  have hn : (a * 1024#32 + b).toNat = a.toNat * 1024 + b.toNat := by
    rw [BitVec.toNat_add, BitVec.toNat_mul]
    have h1024 : (1024#32 : BitVec 32).toNat = 1024 := rfl
    rw [h1024]
    omega
  rw [StableHlo.Predicate.toInt_eq_toNat_of_lt (by rw [hn]; omega), hn]

/-! ## From the flat sum to the sum over sentences and token pairs -/

/-- Flat positions are the triples (sentence, first token, second token), in row-major order. -/
def flatEquiv : Fin 33554432 ≃ Fin 32 × Fin 1024 × Fin 1024 where
  toFun j := (jb j, jp j, jq j)
  invFun t := ⟨(t.1.val * 1024 + t.2.1.val) * 1024 + t.2.2.val, by
    have := t.1.isLt; have := t.2.1.isLt; have := t.2.2.isLt; omega⟩
  left_inv j := by
    refine Fin.ext ?_
    have := j.isLt
    show (j.val / 1048576 * 1024 + j.val / 1024 % 1024) * 1024 + j.val % 1024 = j.val
    omega
  right_inv t := by
    obtain ⟨b, p, q⟩ := t
    have := b.isLt; have := p.isLt; have := q.isLt
    refine Prod.ext (Fin.ext ?_) (Prod.ext (Fin.ext ?_) (Fin.ext ?_))
    · show ((b.val * 1024 + p.val) * 1024 + q.val) / 1048576 = b.val
      omega
    · show ((b.val * 1024 + p.val) * 1024 + q.val) / 1024 % 1024 = p.val
      omega
    · show ((b.val * 1024 + p.val) * 1024 + q.val) % 1024 = q.val
      omega

/-- A sum over flat positions is the triple sum over sentences and token pairs. -/
theorem sum_flat {M : Type*} [AddCommMonoid M] (G : Fin 32 → Fin 1024 → Fin 1024 → M) :
    ∑ j : Fin 33554432, G (jb j) (jp j) (jq j) = ∑ b : Fin 32, ∑ p : Fin 1024, ∑ q : Fin 1024, G b p q := by
  rw [Fintype.sum_equiv flatEquiv (fun j => G (jb j) (jp j) (jq j)) (fun t => G t.1 t.2.1 t.2.2) (fun _ => rfl),
    Fintype.sum_prod_type]
  refine Finset.sum_congr rfl (fun b _ => ?_)
  rw [Fintype.sum_prod_type]

/-- The flattened scores at flat position `j` are the scores at `(b, p, q)`. -/
theorem flat_score (x1 : (⟨S32x1024x1024, .f32⟩ : BufTy).Contents (Elt Ideal)) (j : Fin 33554432) :
    val_main_v7 (F := Ideal) x1 (ix1 j) = x1 (ix3 (jb j) (jp j) (jq j)) := by
  rw [val_main_v7_apply]
  refine congrArg x1 ?_
  funext a
  match a with
  | ⟨0, _⟩ => rfl
  | ⟨1, _⟩ => rfl
  | ⟨2, _⟩ => rfl

/-- With both tags below 1024, the pair word is `k` exactly when the tags are `k / 1024` and `k % 1024`. -/
theorem pair_word_eq_iff (x2 : (⟨S32x1024, .i32⟩ : BufTy).Contents (Elt Ideal)) (hadds : ∀ y, (x2 y).toNat < 1024)
    (j : Fin 33554432) (k : Fin 1048576) :
    (val_main_v10 (F := Ideal) x2 (ix2 j (0 : Fin 1))).toInt = (k.val : Int)
      ↔ (x2 (ix2 (jb j) (jp j))).toNat = k.val / 1024 ∧ (x2 (ix2 (jb j) (jq j))).toNat = k.val % 1024 := by
  rw [pair_word_toInt x2 hadds]
  have hp := hadds (ix2 (jb j) (jp j))
  have hq := hadds (ix2 (jb j) (jq j))
  have := k.isLt
  omega

/-- THE REFERENCE'S HISTOGRAM at flat bin `k`: the scatter-add of the flattened scores at the flattened pair indices
    `adds[b,p] · 1024 + adds[b,q]` is the pair histogram at `(k / 1024, k % 1024)`, when every tag is below 1024 (the
    pair index is then below 2²⁰, read signed it is its value, and it determines both tags). -/
theorem ref_hist (x1 : (⟨S32x1024x1024, .f32⟩ : BufTy).Contents (Elt Ideal)) (x2 : (⟨S32x1024, .i32⟩ : BufTy).Contents (Elt Ideal))
    (hadds : ∀ y, (x2 y).toNat < 1024) (k : Fin 1048576) :
    val_main_v11 (F := Ideal) x1 x2 (ix1 k)
      = hist x1 x2 ⟨k.val / 1024, by have := k.isLt; omega⟩ ⟨k.val % 1024, Nat.mod_lt _ (by norm_num)⟩ := by
  unfold val_main_v11
  have hd : scatter_S1048576_S33554432x1_S33554432_n_0_0_1
      = binDims 1048576 33554432 scatter_S1048576_S33554432x1_S33554432_n_0_0_1.wf := rfl
  rw [hd]
  refine (scatterAdd_bins_apply _ (val_main_v9 (F := Ideal)) (val_main_v10 (F := Ideal) x2) (val_main_v7 (F := Ideal) x1) k).trans ?_
  rw [val_main_v9_apply, val_main_cst_apply]
  show (Ideal.ofBits .f32 0x00000000#32 : EReal) + _ = _
  rw [Ideal.ofBits_zero_f32, zero_add, Finset.sum_filter]
  unfold hist contrib
  rw [← sum_flat]
  refine Finset.sum_congr rfl (fun j _ => ?_)
  exact if_congr (pair_word_eq_iff x2 hadds j k) (flat_score x1 j) rfl

end Cert.ReferenceIdeal.RefValue

end
-- ==== Proof.RefOut.lean ====
/-
  The reference's result is the specification, entry by entry.
-/
import proofs.«412019_j65403761984193_3_alg».proof.Proof.RefHist
import Idealize.ShloMosaic.Lib.StableHlo.Predicate

noncomputable section

open scoped BigOperators

namespace Cert.ReferenceIdeal.RefValue

open Cert.ReferenceIdeal Cert.ReferenceIdeal.Read Cert.Spec
open Idealize.ShloMosaic Idealize.ShloMosaic.ValueIdx

/-! ## The gather read at an index -/

/-- The start-indices index `[b, p, q, 0]` of result index `(b, p, q)`. -/
abbrev gIdx (y : S32x1024x1024.Idx) : S32x1024x1024x1.Idx := fun a => match a with
  | ⟨0, _⟩ => ⟨(y 0).val, (y 0).isLt⟩
  | ⟨1, _⟩ => ⟨(y 1).val, (y 1).isLt⟩
  | ⟨2, _⟩ => ⟨(y 2).val, (y 2).isLt⟩
  | ⟨3, _⟩ => ⟨0, Nat.one_pos⟩

/-- THE GATHER AT `(b, p, q)`: the flat operand at the start index `idx[b, p, q, 0]`, read signed and clamped into
    `[0, 2²⁰ − 1]`. The operand has one axis, which is collapsed and not a batching axis, so the operand index is the
    clamped start alone; the start index has one component, read at `[b, p, q, 0]`. -/
theorem gather_apply {α : Type} {w : Nat} (x : S1048576.Idx → α) (idx : IVec S32x1024x1024x1 w) (y : S32x1024x1024.Idx) :
    Host.gather gather_S1048576_S32x1024x1024x1_S32x1024x1024_n_0_n_n_0_3_1 x idx y
      = x (ix1 ⟨min (idx (gIdx y)).toInt.toNat (1048576 - 1), by omega⟩) := by
  unfold Host.gather
  congr 1
  funext a
  obtain rfl : a = 0 := Subsingleton.elim _ _
  refine Fin.ext ?_
  show gather_S1048576_S32x1024x1024x1_S32x1024x1024_n_0_n_n_0_3_1.start y idx 0
      + gather_S1048576_S32x1024x1024x1_S32x1024x1024_n_0_n_n_0_3_1.batchCoord y 0
      + gather_S1048576_S32x1024x1024x1_S32x1024x1024_n_0_n_n_0_3_1.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S1048576_S32x1024x1024x1_S32x1024x1024_n_0_n_n_0_3_1.startIndexMap
    from List.mem_singleton.mpr rfl)]
  have hsi : gather_S1048576_S32x1024x1024x1_S32x1024x1024_n_0_n_n_0_3_1.siIdx y
      ⟨List.idxOf (0 : Fin 1) gather_S1048576_S32x1024x1024x1_S32x1024x1024_n_0_n_n_0_3_1.startIndexMap,
        List.idxOf_lt_length_iff.2 (List.mem_singleton.mpr rfl)⟩ = gIdx y := by
    funext b; refine Fin.ext ?_
    match b with
    | ⟨0, _⟩ => rfl
    | ⟨1, _⟩ => rfl
    | ⟨2, _⟩ => rfl
    | ⟨3, _⟩ => rfl
  rw [hsi]
  rfl

/-- The same with the clamped start index named: when the start word at `[b, p, q, 0]`, read signed, is the natural
    number `k < 2²⁰`, the clamp leaves it and the gather reads the operand at `k`. -/
theorem gather_apply_of_eq {α : Type} {w : Nat} (x : S1048576.Idx → α) (idx : IVec S32x1024x1024x1 w) (y : S32x1024x1024.Idx)
    (k : Fin 1048576) (h : (idx (gIdx y)).toInt.toNat = k.val) :
    Host.gather gather_S1048576_S32x1024x1024x1_S32x1024x1024_n_0_n_n_0_3_1 x idx y = x (ix1 k) := by
  rw [gather_apply]
  congr 2
  refine Fin.ext ?_
  show min (idx (gIdx y)).toInt.toNat (1048576 - 1) = k.val
  rw [h]
  have := k.isLt
  omega

/-! ## Words: the pair index of two tags below 1024 -/

/-- Two tags below 1024 make the pair index `u · 1024 + v` without wrapping. -/
theorem pair_toNat {u v : BitVec 32} (hu : u.toNat < 1024) (hv : v.toNat < 1024) :
    (u * 1024#32 + v).toNat = u.toNat * 1024 + v.toNat := by
  rw [BitVec.toNat_add, BitVec.toNat_mul]
  simp only [BitVec.toNat_ofNat]
  omega

/-- A word below 2²⁰ is not negative: the maximum with zero leaves it. -/
theorem maxsi_zero_of_lt {w : BitVec 32} (hw : w.toNat < 1048576) : IntOp.maxsi 0#32 w = w := by
  have hti : w.toInt = w.toNat := StableHlo.Predicate.toInt_eq_toNat_of_lt (by omega)
  have h0 : (0#32 : BitVec 32).toInt = 0 := by decide
  unfold IntOp.maxsi
  rw [if_neg]
  simp only [BitVec.slt, hti, h0, decide_eq_true_eq]
  omega

/-- A word below 2²⁰ is at most 2²⁰ − 1: the minimum with that bound leaves it. -/
theorem minsi_top_of_lt {w : BitVec 32} (hw : w.toNat < 1048576) : IntOp.minsi 1048575#32 w = w := by
  have hti : w.toInt = w.toNat := StableHlo.Predicate.toInt_eq_toNat_of_lt (by omega)
  have h1 : (1048575#32 : BitVec 32).toInt = 1048575 := by decide
  unfold IntOp.minsi
  rw [if_neg]
  simp only [BitVec.slt, hti, h1, decide_eq_true_eq]
  omega

/-- A word below 2²⁰ compares below 2²⁰ as a signed integer. -/
theorem slt_top_of_lt {w : BitVec 32} (hw : w.toNat < 1048576) : IntOp.cmpi .slt w 1048576#32 = 1#1 := by
  rw [StableHlo.Predicate.slt_iff_toNat (by omega) (by decide)]
  simpa using hw

/-- A word below 2²⁰ does not compare below zero as a signed integer. -/
theorem slt_zero_of_lt {w : BitVec 32} (hw : w.toNat < 1048576) : IntOp.cmpi .slt w 0#32 = 0#1 := by
  refine eq_zero_of_ne_one ?_
  rw [StableHlo.Predicate.slt_iff_toNat (by omega) (by decide)]
  simp

/-! ## The stages of the index chain at `(b, p, q)` -/

section Stages
variable (x3 : (⟨S32x1024, .i32⟩ : BufTy).Contents (Elt Ideal))

/-- The pair index at `(b, p, q)` is `pos[b, p] · 1024 + pos[b, q]` in 32-bit arithmetic. -/
theorem pidx_apply (b : Fin 32) (p q : Fin 1024) :
    val_main_v24 (F := Ideal) x3 (ix3 b p q) = x3 (ix2 b p) * 1024#32 + x3 (ix2 b q) := by
  rw [val_main_v24_apply, val_main_v22_apply, val_main_v23_apply, val_main_v20_apply, val_main_v21_apply,
    val_main_v18_apply, val_main_v19_apply, val_main_c_2_apply]
  have h1 : idx_main_v18 (idx_main_v22 (ix3 b p q)) = ix2 b p := by
    funext a; match a with | ⟨0, _⟩ => rfl | ⟨1, _⟩ => rfl
  have h2 : idx_main_v21 (idx_main_v23 (ix3 b p q)) = ix2 b q := by
    funext a; match a with | ⟨0, _⟩ => rfl | ⟨1, _⟩ => rfl
  rw [h1, h2]
  rfl

variable (hpos : ∀ y, (x3 y).toNat < 1024)
include hpos

/-- Its value: below 2²⁰. -/
theorem pidx_toNat (b : Fin 32) (p q : Fin 1024) :
    (val_main_v24 (F := Ideal) x3 (ix3 b p q)).toNat = (x3 (ix2 b p)).toNat * 1024 + (x3 (ix2 b q)).toNat := by
  rw [pidx_apply, pair_toNat (hpos _) (hpos _)]

theorem pidx_lt (b : Fin 32) (p q : Fin 1024) : (val_main_v24 (F := Ideal) x3 (ix3 b p q)).toNat < 1048576 := by
  rw [pidx_toNat x3 hpos]
  have := hpos (ix2 b p); have := hpos (ix2 b q)
  omega

/-- The validity mask is set everywhere. -/
theorem mask_apply (b : Fin 32) (p q : Fin 1024) : val_main_v26 (F := Ideal) x3 (ix3 b p q) = 1#1 := by
  rw [val_main_v26_apply, val_main_v25_apply, val_main_c_3_apply]
  exact slt_top_of_lt (pidx_lt x3 hpos b p q)

/-- The clip to `[0, 2²⁰ − 1]` leaves the pair index. -/
theorem clip_apply (b : Fin 32) (p q : Fin 1024) :
    val_main_v27 (F := Ideal) x3 (ix3 b p q) = val_main_v24 (F := Ideal) x3 (ix3 b p q) := by
  rw [val_main_v27_apply, val_main_call0_v4_apply, val_main_call0_v3_apply, val_main_c_5_apply, val_main_call0_v2_apply,
    val_main_call0_v1_apply, val_main_call0_v0_apply, val_main_c_4_apply,
    maxsi_zero_of_lt (pidx_lt x3 hpos b p q), minsi_top_of_lt (pidx_lt x3 hpos b p q)]

/-- The wrap of negative indices leaves it too. -/
theorem wrap_apply (b : Fin 32) (p q : Fin 1024) :
    val_main_v32 (F := Ideal) x3 (ix3 b p q) = val_main_v24 (F := Ideal) x3 (ix3 b p q) := by
  rw [val_main_v32_apply, val_main_v29_apply, val_main_v28_apply, val_main_c_6_apply, clip_apply x3 hpos,
    slt_zero_of_lt (pidx_lt x3 hpos b p q), select_zero]

/-- The start index the gather reads for `(b, p, q)`, as a natural number: the pair index. -/
theorem start_toNat (b : Fin 32) (p q : Fin 1024) :
    (val_main_v33 (F := Ideal) x3 (gIdx (ix3 b p q))).toInt.toNat = (x3 (ix2 b p)).toNat * 1024 + (x3 (ix2 b q)).toNat := by
  have hi : idx_main_v33 (gIdx (ix3 b p q)) = ix3 b p q := by
    funext a; match a with | ⟨0, _⟩ => rfl | ⟨1, _⟩ => rfl | ⟨2, _⟩ => rfl
  rw [val_main_v33_apply, hi, wrap_apply x3 hpos,
    StableHlo.Predicate.toInt_eq_toNat_of_lt (by have := pidx_lt x3 hpos b p q; omega), Int.toNat_natCast,
    pidx_toNat x3 hpos]

end Stages

/-! ## The logistic stage at an index -/

/-- The stages from the histogram to the gather's operand, `1 / (1 + exp (−h))`, are the logistic function. -/
theorem logistic_apply (x1 : (⟨S32x1024x1024, .f32⟩ : BufTy).Contents (Elt Ideal)) (x2 : (⟨S32x1024, .i32⟩ : BufTy).Contents (Elt Ideal))
    (i : S1048576.Idx) : val_main_v17 (F := Ideal) x1 x2 i = sigm (val_main_v11 (F := Ideal) x1 x2 i) := by
  rw [val_main_v17_apply, val_main_v16_apply, val_main_cst_1_apply, val_main_v15_apply, val_main_v14_apply,
    val_main_cst_0_apply, val_main_v13_apply, val_main_v12_apply]
  generalize val_main_v11 (F := Ideal) x1 x2 i = h
  rfl

/-- THE REFERENCE IS THE SPECIFICATION: with every tag below 1024 the flat index `pos[b,p] · 1024 + pos[b,q]` is below
    2²⁰, so the validity mask is set, the clamp and the wrap of negative indices do nothing, and the gather reads the
    logistic of the histogram's bin at the two tags. -/
theorem ref_out (x0 x1 : (⟨S32x1024x1024, .f32⟩ : BufTy).Contents (Elt Ideal)) (x2 x3 : (⟨S32x1024, .i32⟩ : BufTy).Contents (Elt Ideal))
    (hadds : ∀ y, (x2 y).toNat < 1024) (hpos : ∀ y, (x3 y).toNat < 1024) :
    val_main_v38 (F := Ideal) x0 x1 x2 x3 = out x0 x1 x2 x3 := by
  funext y
  obtain ⟨b, p, q, rfl⟩ : ∃ (b : Fin 32) (p q : Fin 1024), y = ix3 b p q := ⟨y 0, y 1, y 2, eq_ix3 y⟩
  have hp := hpos (ix2 b p)
  have hq := hpos (ix2 b q)
  -- the flat bin the gather reads
  have hk : (x3 (ix2 b p)).toNat * 1024 + (x3 (ix2 b q)).toNat < 1048576 := by omega
  have hg : val_main_v34 (F := Ideal) x1 x2 x3 (ix3 b p q)
      = sigm (hist x1 x2 (tag (x3 (ix2 b p))) (tag (x3 (ix2 b q)))) := by
    unfold val_main_v34
    rw [gather_apply_of_eq _ _ _ ⟨_, hk⟩ (start_toNat x3 hpos b p q), logistic_apply, ref_hist x1 x2 hadds]
    congr 2
    · refine Fin.ext ?_
      show ((x3 (ix2 b p)).toNat * 1024 + (x3 (ix2 b q)).toNat) / 1024 = (tag (x3 (ix2 b p))).val
      rw [tag_val_of_lt hp]; omega
    · refine Fin.ext ?_
      show ((x3 (ix2 b p)).toNat * 1024 + (x3 (ix2 b q)).toNat) % 1024 = (tag (x3 (ix2 b q))).val
      rw [tag_val_of_lt hq]; omega
  rw [val_main_v38_apply, val_main_v37_apply, val_main_v36_apply, val_main_cst_9_apply, val_main_v35_apply,
    mask_apply x3 hpos, select_one, hg]
  rfl

end Cert.ReferenceIdeal.RefValue

end
-- ==== Proof.PreFacts.lean ====
/-
  What the precondition says of the four arrays, entry by entry.

  The precondition is one bit: the conjunction of six "for all entries" tests. Two say |x| < +∞ of every score, four
  say 0 ≤ w and w < 1024 (signed) of every tag word. A conjunction of bits is 1 exactly when each bit is; a "for all"
  that came out 1 met a 1 at every entry; an extended real whose absolute value is below +∞ is a real; and a 32-bit
  word that is nonnegative and below 1024 as a signed number is below 1024 as an unsigned one.
-/
import proofs.«412019_j65403761984193_3_alg».proof.Proof.Gen.Pre_finite_inputs
import proofs.«412019_j65403761984193_3_alg».proof.Proof.Spec
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx Cert.Spec

variable [Cert.Pre_finite_inputs.Facts]

/-- The rank-0 shape has one index: a function out of the empty set of axes. -/
instance : Subsingleton Cert.Pre_finite_inputs.S_.Idx := ⟨fun a b => funext fun d => d.elim0⟩

/-- The single-precision pattern with all exponent bits set and no fraction bit denotes +∞. -/
theorem inf_eq_top : Ideal.ofBits .f32 0x7F800000#32 = (⊤ : EReal) := by simp [Ideal.ofBits, Ideal.ieee]

/-- An extended real with |x| = max x (−x) strictly below +∞ is a real: |−∞| = |+∞| = +∞ is not below +∞. -/
theorem real_of_abs_lt_top (x : EReal) (h : Ideal.cmp .olt (max x (-x)) ⊤ = 1#1) : ∃ r : ℝ, x = (r : EReal) := by
  unfold Ideal.cmp at h
  rw [StableHlo.Predicate.ofBool_eq_one_iff] at h
  simp only [decide_eq_true_eq] at h
  induction x using EReal.rec with
  | bot => simp at h
  | top => simp at h
  | coe r => exact ⟨r, rfl⟩

/-- A word with 0 ≤ w < 1024 as a signed number has its top bit clear, so its unsigned value is the same number. -/
theorem toNat_lt_of_cmp (w : BitVec 32) (h0 : IntOp.cmpi .sge w 0#32 = 1#1) (h1 : IntOp.cmpi .slt w 1024#32 = 1#1) :
    w.toNat < 1024 := by
  rw [IntOp.cmpi_sge, show (0#32 : BitVec 32).toInt = 0 from by decide] at h0
  rw [IntOp.cmpi_slt, show (1024#32 : BitVec 32).toInt = 1024 from by decide] at h1
  have hw := w.isLt
  rw [BitVec.toInt_eq_toNat_cond] at h0 h1
  split at h0 <;> omega

/-- The precondition, all ones, says: both score arrays hold reals, and every tag of both tables is in `[0, 1024)`. -/
theorem of_pre (s a : SArc.Idx → EReal) (adds pos : STag.Idx → BitVec 32)
    (h : Cert.Pre_finite_inputs.fn (F := Ideal) s a adds pos = fun _ => 1#1) :
    (∀ y, ∃ r : ℝ, s y = (r : EReal)) ∧ (∀ y, ∃ r : ℝ, a y = (r : EReal))
      ∧ (∀ y, (adds y).toNat < 1024) ∧ (∀ y, (pos y).toNat < 1024) := by
  -- the one bit, read at its one index, is a nest of five conjunctions over six "for all" bits
  have h0 := congrFun h ValueIdx.ix0
  dsimp only [Cert.Pre_finite_inputs.fn, Cert.Pre_finite_inputs.fn_part1] at h0
  simp only [andi, IntOp.andi_eq_one] at h0
  obtain ⟨⟨⟨⟨⟨hs, ha⟩, ha0⟩, ha1⟩, hp0⟩, hp1⟩ := h0
  refine ⟨fun y => ?_, fun y => ?_, fun y => ?_, fun y => ?_⟩
  -- s: the test at y is |s y| < (the constant spread over the array, read at y), and that constant is +∞
  · have e := Host.reduce_andi_all _ _ _ _ _ hs y
    rw [cmpf, StableHlo.Predicate.bcast_scalar _ Cert.Pre_finite_inputs.Facts.h_S_] at e
    have e' : Ideal.cmp .olt (max (s y) (-(s y))) (Ideal.ofBits .f32 0x7F800000#32) = 1#1 := e
    rw [inf_eq_top] at e'
    exact real_of_abs_lt_top _ e'
  -- a: the same
  · have e := Host.reduce_andi_all _ _ _ _ _ ha y
    rw [cmpf, StableHlo.Predicate.bcast_scalar _ Cert.Pre_finite_inputs.Facts.h_S_] at e
    have e' : Ideal.cmp .olt (max (a y) (-(a y))) (Ideal.ofBits .f32 0x7F800000#32) = 1#1 := e
    rw [inf_eq_top] at e'
    exact real_of_abs_lt_top _ e'
  -- adds: the two tests at y compare the word with the constants 0 and 1024 spread over the table
  · have e0 := Host.reduce_andi_all _ _ _ _ _ ha0 y
    have e1 := Host.reduce_andi_all _ _ _ _ _ ha1 y
    rw [cmpi, StableHlo.Predicate.bcast_scalar _ Cert.Pre_finite_inputs.Facts.h_S_] at e0 e1
    exact toNat_lt_of_cmp _ e0 e1
  -- pos: the same
  · have e0 := Host.reduce_andi_all _ _ _ _ _ hp0 y
    have e1 := Host.reduce_andi_all _ _ _ _ _ hp1 y
    rw [cmpi, StableHlo.Predicate.bcast_scalar _ Cert.Pre_finite_inputs.Facts.h_S_] at e0 e1
    exact toNat_lt_of_cmp _ e0 e1

end Cert.PreFacts

end
-- ==== Proof.lean ====
/-
  The claims of this certificate: the word-level kernel, its idealization and the idealized reference each run to the end
  without a fault and leave their four argument arrays unchanged; the idealization replaced four round trips through
  bfloat16 by the identity; and, over the extended reals, the idealized kernel and the idealized reference end with the
  same result when the arc scores are finite and both tag tables hold part-of-speech ids in [0, 1024).

  The kernel is two launches. The first accumulates, per half of the 32 sentences, the pair histogram
  H[i, j] = Σ a[b, p, q] over the token pairs with tags (adds[b, p], adds[b, q]) = (i, j), as two products with the 0/1
  matrix of the tags (each operand split into a bfloat16 head and a remainder x − x, which vanishes over the reals); the
  host adds the two halves and applies 1 / (1 + exp (−·)); the second launch reads that table at the tags of `pos` by two
  more 0/1 products and adds three tenths of it to s. The reference scatters the flattened scores into 2²⁰ bins at the
  flat index adds[b, p] · 1024 + adds[b, q], applies the same logistic, and gathers at pos[b, p] · 1024 + pos[b, q]. With
  every tag below 1024 the flat index determines the pair, so both are the one function `Cert.Spec.out`.
-/
import proofs.«412019_j65403761984193_3_alg».proof.Defs
import proofs.«412019_j65403761984193_3_alg».proof.Proof.Gen.Kernel
import proofs.«412019_j65403761984193_3_alg».proof.Proof.Gen.KernelIdeal
import proofs.«412019_j65403761984193_3_alg».proof.Proof.Gen.ReferenceIdeal
import proofs.«412019_j65403761984193_3_alg».proof.Proof.Gen.Pre_finite_inputs
import proofs.«412019_j65403761984193_3_alg».proof.Proof.K.Run
import proofs.«412019_j65403761984193_3_alg».proof.Proof.KIValue
import proofs.«412019_j65403761984193_3_alg».proof.Proof.RefOut
import proofs.«412019_j65403761984193_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and keeps its arguments: its run with the result's contents dropped. -/
theorem frame_k : Cert.frame_Kernel := fun m g _ =>
  (θ_run Cert.Kernel.defs _ _).mono (fun _ h c => (h c).2) (Cert.Kernel.Hand.run (F := Bits) m g)

/-- The same for the idealized kernel. -/
theorem frame_ki : Cert.frame_KernelIdeal := fun m g _ =>
  (θ_run Cert.KernelIdeal.defs _ _).mono (fun _ h c => (h c).2) (Cert.KernelIdeal.Hand.run (F := Ideal) m g)

/-- The reference is host operations only: its run with the result dropped. -/
theorem frame_ri : Cert.frame_ReferenceIdeal := fun m g _ =>
  (θ_run Cert.ReferenceIdeal.defs _ _).mono (fun _ h c => (h c).2) (Cert.ReferenceIdeal.Value.run (F := Ideal) m g)

/-- The four rewrites of the idealization: widening back a value narrowed to bfloat16 is the identity over the reals. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- Both idealized programs end at the specification's function of the arguments, which agree. -/
theorem algebraic : Cert.algebraic_KernelIdeal_ReferenceIdeal := by
  intro m g m' g' hpre hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Hand.run (F := Ideal) m g)
    obtain ⟨-, ha, -, hpos⟩ := Cert.PreFacts.of_pre _ _ _ _ (hpre c)
    exact Cert.KernelIdeal.KValue.kernel_out m g c ha hpos
  · refine (θ_run Cert.ReferenceIdeal.defs _ _).mono (fun r h c => ⟨(h c).1.trans ?_, (h c).2⟩)
      (Cert.ReferenceIdeal.Value.run (F := Ideal) m' g')
    obtain ⟨-, -, hadds, hpos⟩ := Cert.PreFacts.of_pre _ _ _ _ (hpre c)
    rw [Cert.ReferenceIdeal.Read.val_main_v38_eq, (hagree c).1, (hagree c).2.1, (hagree c).2.2.1, (hagree c).2.2.2]
    exact Cert.ReferenceIdeal.RefValue.ref_out _ _ _ _ hadds hpos

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
